-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v73) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x3x224x224 : Shape := ⟨4, ![32, 3, 224, 224]⟩
abbrev S64x75 : Shape := ⟨2, ![64, 75]⟩
abbrev S_ : Shape := ⟨0, ![]⟩

class Facts : Prop where
  bcast_S_S32x3x224x224 : S_.BroadcastsInDim S32x3x224x224 (![] : Fin 0 → Fin S32x3x224x224.rank)
  reducesTo_S32x3x224x224_S_d0_1_2_3 : S32x3x224x224.ReducesTo [0, 1, 2, 3] S_
  h_S_ : 0 < S_.numel
  bcast_S_S64x75 : S_.BroadcastsInDim S64x75 (![] : Fin 0 → Fin S64x75.rank)
  reducesTo_S64x75_S_d0_1 : S64x75.ReducesTo [0, 1] S_

variable [Facts]

def fn {F : FTy → Type} [FloatOps F] (main_arg0 : FVec F S32x3x224x224 .f32) (main_arg1 : FVec F S64x75 .f32) : IVec S_ 1 :=
  let main_v0 : FVec F S32x3x224x224 .f32 := Host.absf main_arg0
  let main_cst : FVec F S_ .f32 := constant S_ .f32 0x7F800000#32
  let main_v1 : FVec F S32x3x224x224 .f32 := broadcastInDim S32x3x224x224 ![] bcast_S_S32x3x224x224 main_cst
  let main_v2 : IVec S32x3x224x224 1 := cmpf .olt main_v0 main_v1
  let main_c : IVec S_ 1 := constantI S_ 1 1#1
  let main_v3 : IVec S_ 1 := (fun x v => Host.reduce IntOp.andi x v reducesTo_S32x3x224x224_S_d0_1_2_3 h_S_) main_v2 main_c
  let main_v4 : FVec F S64x75 .f32 := Host.absf main_arg1
  let main_cst_0 : FVec F S_ .f32 := constant S_ .f32 0x7F800000#32
  let main_v5 : FVec F S64x75 .f32 := broadcastInDim S64x75 ![] bcast_S_S64x75 main_cst_0
  let main_v6 : IVec S64x75 1 := cmpf .olt main_v4 main_v5
  let main_c_1 : IVec S_ 1 := constantI S_ 1 1#1
  let main_v7 : IVec S_ 1 := (fun x v => Host.reduce IntOp.andi x v reducesTo_S64x75_S_d0_1 h_S_) main_v6 main_c_1
  let main_v8 : IVec S_ 1 := andi main_v3 main_v7
  main_v8
-- ==== Kernel.lean ====
abbrev S32x3x224x224 : Shape := ⟨4, ![32, 3, 224, 224]⟩
abbrev S64x75 : Shape := ⟨2, ![64, 75]⟩
abbrev S_ : Shape := ⟨0, ![]⟩
abbrev S32x3x228x228 : Shape := ⟨4, ![32, 3, 228, 228]⟩
abbrev S32x64x50176 : Shape := ⟨3, ![32, 64, 50176]⟩
abbrev S1x3x228x228 : Shape := ⟨4, ![1, 3, 228, 228]⟩
abbrev S1x64x7168 : Shape := ⟨3, ![1, 64, 7168]⟩
abbrev S1x3x36x228 : Shape := ⟨4, ![1, 3, 36, 228]⟩
abbrev S3x36x228 : Shape := ⟨3, ![3, 36, 228]⟩
abbrev S36x228 : Shape := ⟨2, ![36, 228]⟩
abbrev S32x224 : Shape := ⟨2, ![32, 224]⟩
abbrev S7168 : Shape := ⟨1, ![7168]⟩
abbrev S3x32x224 : Shape := ⟨3, ![3, 32, 224]⟩
abbrev S3x1x32x224 : Shape := ⟨4, ![3, 1, 32, 224]⟩
abbrev S3x25x32x224 : Shape := ⟨4, ![3, 25, 32, 224]⟩
abbrev S75x32x224 : Shape := ⟨3, ![75, 32, 224]⟩
abbrev S75x7168 : Shape := ⟨2, ![75, 7168]⟩
abbrev S64 : Shape := ⟨1, ![64]⟩
abbrev S64x7168 : Shape := ⟨2, ![64, 7168]⟩
abbrev S64x1 : Shape := ⟨2, ![64, 1]⟩
abbrev S1x7168 : Shape := ⟨2, ![1, 7168]⟩
abbrev S32x64x224x224 : Shape := ⟨4, ![32, 64, 224, 224]⟩

abbrev nBuf : Space → Nat
  | .hbm => 7
  | .vmem => 5
  | .smem => 0
  | _ => 0

abbrev bufTy : (tb : Table) → Fin (tcTables nBuf tb) → BufTy
  | .hbm, ⟨0, _⟩ => ⟨S32x3x224x224, .f32⟩
  | .hbm, ⟨1, _⟩ => ⟨S64x75, .f32⟩
  | .hbm, ⟨2, _⟩ => ⟨S_, .i32⟩
  | .hbm, ⟨3, _⟩ => ⟨S_, .f32⟩
  | .hbm, ⟨4, _⟩ => ⟨S32x3x228x228, .f32⟩
  | .hbm, ⟨5, _⟩ => ⟨S32x64x50176, .f32⟩
  | .hbm, ⟨6, _⟩ => ⟨S32x64x224x224, .f32⟩
  | .local _ .vmem, ⟨0, _⟩ => ⟨S1x3x228x228, .f32⟩
  | .local _ .vmem, ⟨1, _⟩ => ⟨S1x3x228x228, .f32⟩
  | .local _ .vmem, ⟨2, _⟩ => ⟨S64x75, .f32⟩
  | .local _ .vmem, ⟨3, _⟩ => ⟨S1x64x7168, .f32⟩
  | .local _ .vmem, ⟨4, _⟩ => ⟨S1x64x7168, .f32⟩
  | _, _ => ⟨S32x3x224x224, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![32, 7], ![false, false]⟩

def k0_mult1 (i : grid0.Coords) : BitVec 32 :=
  let arg1 : BitVec 32 := BitVec.ofNat 32 (i 1).val
  let c32_i32 : BitVec 32 := 32#32
  let v0 : BitVec 32 := Scalar.muli arg1 c32_i32
  v0
def k0_off1 (i : grid0.Coords) : Fin 4 → Nat :=
  let c0 : Index := 0#32
  let c0_0 : Index := 0#32
  let arg1 : BitVec 32 := BitVec.ofNat 32 (i 1).val
  let c32_i32 : BitVec 32 := 32#32
  let v0 : BitVec 32 := Scalar.muli arg1 c32_i32
  let v1 : BitVec 32 := v0
  let v2 : Index := Scalar.indexCast v1
  let c0_1 : Index := 0#32
  ![0, 0, v2.toNat, 0]
def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x3x228x228 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S64x75 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x64x7168 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  pads_S32x3x224x224_S32x3x228x228_000_000_220_220 : S32x3x224x224.Pads (![0, 0, 2, 2] : Fin 4 → Nat) ![0, 0, 2, 2] ![0, 0, 0, 0] S32x3x228x228
  h_S_ : 0 < S_.numel
  h_S1x3x36x228 : 0 < S1x3x36x228.numel
  shapeCasts_S1x3x36x228_S3x36x228 : S1x3x36x228.ShapeCasts S3x36x228
  reduces_S3x36x228_S36x228 : S3x36x228.Reduces [0] S36x228
  slices_S36x228_o0_0_S32x224 : S36x228.Slices ![0, 0] S32x224
  slices_S36x228_o0_1_S32x224 : S36x228.Slices ![0, 1] S32x224
  slices_S36x228_o0_2_S32x224 : S36x228.Slices ![0, 2] S32x224
  slices_S36x228_o0_3_S32x224 : S36x228.Slices ![0, 3] S32x224
  slices_S36x228_o0_4_S32x224 : S36x228.Slices ![0, 4] S32x224
  slices_S36x228_o1_0_S32x224 : S36x228.Slices ![1, 0] S32x224
  slices_S36x228_o1_1_S32x224 : S36x228.Slices ![1, 1] S32x224
  slices_S36x228_o1_2_S32x224 : S36x228.Slices ![1, 2] S32x224
  slices_S36x228_o1_3_S32x224 : S36x228.Slices ![1, 3] S32x224
  slices_S36x228_o1_4_S32x224 : S36x228.Slices ![1, 4] S32x224
  slices_S36x228_o2_0_S32x224 : S36x228.Slices ![2, 0] S32x224
  slices_S36x228_o2_1_S32x224 : S36x228.Slices ![2, 1] S32x224
  slices_S36x228_o2_2_S32x224 : S36x228.Slices ![2, 2] S32x224
  slices_S36x228_o2_3_S32x224 : S36x228.Slices ![2, 3] S32x224
  slices_S36x228_o2_4_S32x224 : S36x228.Slices ![2, 4] S32x224
  slices_S36x228_o3_0_S32x224 : S36x228.Slices ![3, 0] S32x224
  slices_S36x228_o3_1_S32x224 : S36x228.Slices ![3, 1] S32x224
  slices_S36x228_o3_2_S32x224 : S36x228.Slices ![3, 2] S32x224
  slices_S36x228_o3_3_S32x224 : S36x228.Slices ![3, 3] S32x224
  slices_S36x228_o3_4_S32x224 : S36x228.Slices ![3, 4] S32x224
  slices_S36x228_o4_0_S32x224 : S36x228.Slices ![4, 0] S32x224
  slices_S36x228_o4_1_S32x224 : S36x228.Slices ![4, 1] S32x224
  slices_S36x228_o4_2_S32x224 : S36x228.Slices ![4, 2] S32x224
  slices_S36x228_o4_3_S32x224 : S36x228.Slices ![4, 3] S32x224
  slices_S36x228_o4_4_S32x224 : S36x228.Slices ![4, 4] S32x224
  shapeCasts_S32x224_S7168 : S32x224.ShapeCasts S7168
  slices_S3x36x228_o0_0_0_S3x32x224 : S3x36x228.Slices ![0, 0, 0] S3x32x224
  slices_S3x36x228_o0_0_1_S3x32x224 : S3x36x228.Slices ![0, 0, 1] S3x32x224
  slices_S3x36x228_o0_0_2_S3x32x224 : S3x36x228.Slices ![0, 0, 2] S3x32x224
  slices_S3x36x228_o0_0_3_S3x32x224 : S3x36x228.Slices ![0, 0, 3] S3x32x224
  slices_S3x36x228_o0_0_4_S3x32x224 : S3x36x228.Slices ![0, 0, 4] S3x32x224
  slices_S3x36x228_o0_1_0_S3x32x224 : S3x36x228.Slices ![0, 1, 0] S3x32x224
  slices_S3x36x228_o0_1_1_S3x32x224 : S3x36x228.Slices ![0, 1, 1] S3x32x224
  slices_S3x36x228_o0_1_2_S3x32x224 : S3x36x228.Slices ![0, 1, 2] S3x32x224
  slices_S3x36x228_o0_1_3_S3x32x224 : S3x36x228.Slices ![0, 1, 3] S3x32x224
  slices_S3x36x228_o0_1_4_S3x32x224 : S3x36x228.Slices ![0, 1, 4] S3x32x224
  slices_S3x36x228_o0_2_0_S3x32x224 : S3x36x228.Slices ![0, 2, 0] S3x32x224
  slices_S3x36x228_o0_2_1_S3x32x224 : S3x36x228.Slices ![0, 2, 1] S3x32x224
  slices_S3x36x228_o0_2_2_S3x32x224 : S3x36x228.Slices ![0, 2, 2] S3x32x224
  slices_S3x36x228_o0_2_3_S3x32x224 : S3x36x228.Slices ![0, 2, 3] S3x32x224
  slices_S3x36x228_o0_2_4_S3x32x224 : S3x36x228.Slices ![0, 2, 4] S3x32x224
  slices_S3x36x228_o0_3_0_S3x32x224 : S3x36x228.Slices ![0, 3, 0] S3x32x224
  slices_S3x36x228_o0_3_1_S3x32x224 : S3x36x228.Slices ![0, 3, 1] S3x32x224
  slices_S3x36x228_o0_3_2_S3x32x224 : S3x36x228.Slices ![0, 3, 2] S3x32x224
  slices_S3x36x228_o0_3_3_S3x32x224 : S3x36x228.Slices ![0, 3, 3] S3x32x224
  slices_S3x36x228_o0_3_4_S3x32x224 : S3x36x228.Slices ![0, 3, 4] S3x32x224
  slices_S3x36x228_o0_4_0_S3x32x224 : S3x36x228.Slices ![0, 4, 0] S3x32x224
  slices_S3x36x228_o0_4_1_S3x32x224 : S3x36x228.Slices ![0, 4, 1] S3x32x224
  slices_S3x36x228_o0_4_2_S3x32x224 : S3x36x228.Slices ![0, 4, 2] S3x32x224
  slices_S3x36x228_o0_4_3_S3x32x224 : S3x36x228.Slices ![0, 4, 3] S3x32x224
  slices_S3x36x228_o0_4_4_S3x32x224 : S3x36x228.Slices ![0, 4, 4] S3x32x224
  shapeCasts_S3x32x224_S3x1x32x224 : S3x32x224.ShapeCasts S3x1x32x224
  concatenates_S3x1x32x224_S3x1x32x224_S3x1x32x224_S3x1x32x224_S3x1x32x224_S3x1x32x224_S3x1x32x224_S3x1x32x224_S3x1x32x224_S3x1x32x224_S3x1x32x224_S3x1x32x224_S3x1x32x224_S3x1x32x224_S3x1x32x224_S3x1x32x224_S3x1x32x224_S3x1x32x224_S3x1x32x224_S3x1x32x224_S3x1x32x224_S3x1x32x224_S3x1x32x224_S3x1x32x224_S3x1x32x224_S3x25x32x224_d1 : Shape.Concatenates [S3x1x32x224, S3x1x32x224, S3x1x32x224, S3x1x32x224, S3x1x32x224, S3x1x32x224, S3x1x32x224, S3x1x32x224, S3x1x32x224, S3x1x32x224, S3x1x32x224, S3x1x32x224, S3x1x32x224, S3x1x32x224, S3x1x32x224, S3x1x32x224, S3x1x32x224, S3x1x32x224, S3x1x32x224, S3x1x32x224, S3x1x32x224, S3x1x32x224, S3x1x32x224, S3x1x32x224, S3x1x32x224] S3x25x32x224 1
  shapeCasts_S3x25x32x224_S75x32x224 : S3x25x32x224.ShapeCasts S75x32x224
  shapeCasts_S75x32x224_S75x7168 : S75x32x224.ShapeCasts S75x7168
  inb_S64x75_S64x75_0_0 : ∀ a, (![0, 0] : Fin 2 → Nat) a + S64x75.size a ≤ S64x75.size a
  h_S64x75 : 0 < S64x75.numel
  reduces_S64x75_S64 : S64x75.Reduces [1] S64
  bitsLt_bf16_f32 : FTy.bits .bf16 < FTy.bits .f32
  shapeCasts_S64_S64x1 : S64.ShapeCasts S64x1
  shapeCasts_S7168_S1x7168 : S7168.ShapeCasts S1x7168
  broadcasts_S64x1_S64x7168 : S64x1.Broadcasts S64x7168
  broadcasts_S1x7168_S64x7168 : S1x7168.Broadcasts S64x7168
  inb_S1x64x7168_S1x64x7168_0_0_0 : ∀ a, (![0, 0, 0] : Fin 3 → Nat) a + S1x64x7168.size a ≤ S1x64x7168.size a
  h_S1x64x7168 : 0 < S1x64x7168.numel
  shapeCasts_S1x64x7168_S64x7168 : S1x64x7168.ShapeCasts S64x7168
  shapeCasts_S64x7168_S1x64x7168 : S64x7168.ShapeCasts S1x64x7168
  shapeCasts_S32x64x50176_S32x64x224x224 : S32x64x50176.ShapeCasts S32x64x224x224
  dot_S64x75_S75x7168_S64x7168_1_0_0_1_n_n_wf : DotDims.WF S64x75 S75x7168 S64x7168 [1] [0] [0] [1] [] []
  hrank0 : 0 < grid0.rank
  k0_mult1_dvd : ∀ i : grid0.Coords, 32 ∣ (k0_mult1 i).toNat
  k0_off1_inb : ∀ i : grid0.Coords, ∀ a, (k0_off1 i) a + S1x3x36x228.size a ≤ S1x3x228x228.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x3x228x228.size a ≤ S32x3x228x228.size a
  hwx0_0 : ∀ i : grid0.Coords, EltTy.bits .f32 = 32 ∨ (Rect.block (s := S32x3x228x228) S1x3x228x228.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x75.size a ≤ S64x75.size a
  hwx0_1 : ∀ i : grid0.Coords, EltTy.bits .f32 = 32 ∨ (Rect.block (s := S64x75) S64x75.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x64x7168.size a ≤ S32x64x50176.size a
  hwx0_2 : ∀ i : grid0.Coords, EltTy.bits .f32 = 32 ∨ (Rect.block (s := S32x64x50176) S1x64x7168.size (cc0_transform_2 i) (hinb0_2 i)).WholeWords (EltTy.packing .f32)

variable [Facts₀]

def dot_S64x75_S75x7168_S64x7168_1_0_0_1_n_n : DotDims S64x75 S75x7168 S64x7168 where
  lhsContracting := [1]
  rhsContracting := [0]
  lhsNonContracting := [0]
  rhsNonContracting := [1]
  lhsBatch := []
  rhsBatch := []
  wf := dot_S64x75_S75x7168_S64x7168_1_0_0_1_n_n_wf

abbrev win0_0 : Pipeline.Window sig grid0 :=
  Pipeline.Window.ofSpec (Memref.whole main_v0) S1x3x228x228.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S64x75.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x64x7168.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S32x3x224x224 : Shape := ⟨4, ![32, 3, 224, 224]⟩
abbrev S64x75 : Shape := ⟨2, ![64, 75]⟩
abbrev S_ : Shape := ⟨0, ![]⟩
abbrev S32x3x228x228 : Shape := ⟨4, ![32, 3, 228, 228]⟩
abbrev S32x3x1x224x224 : Shape := ⟨5, ![32, 3, 1, 224, 224]⟩
abbrev S32x3x16x224x224 : Shape := ⟨5, ![32, 3, 16, 224, 224]⟩
abbrev S32x3x9x224x224 : Shape := ⟨5, ![32, 3, 9, 224, 224]⟩
abbrev S32x3x25x224x224 : Shape := ⟨5, ![32, 3, 25, 224, 224]⟩
abbrev S32x75x50176 : Shape := ⟨3, ![32, 75, 50176]⟩
abbrev S32x50176x75 : Shape := ⟨3, ![32, 50176, 75]⟩
abbrev S32x50176 : Shape := ⟨2, ![32, 50176]⟩
abbrev S64 : Shape := ⟨1, ![64]⟩
abbrev S32x50176x64 : Shape := ⟨3, ![32, 50176, 64]⟩
abbrev S32x50176x1 : Shape := ⟨3, ![32, 50176, 1]⟩
abbrev S1x1x64 : Shape := ⟨3, ![1, 1, 64]⟩
abbrev S32x64x50176 : Shape := ⟨3, ![32, 64, 50176]⟩
abbrev S32x64x224x224 : Shape := ⟨4, ![32, 64, 224, 224]⟩

abbrev nBuf : Space → Nat
  | .hbm => 82
  | .vmem => 0
  | .smem => 0
  | _ => 0

abbrev bufTy : (tb : Table) → Fin (tcTables nBuf tb) → BufTy
  | .hbm, ⟨0, _⟩ => ⟨S32x3x224x224, .f32⟩
  | .hbm, ⟨1, _⟩ => ⟨S64x75, .f32⟩
  | .hbm, ⟨2, _⟩ => ⟨S_, .i32⟩
  | .hbm, ⟨3, _⟩ => ⟨S_, .f32⟩
  | .hbm, ⟨4, _⟩ => ⟨S32x3x228x228, .f32⟩
  | .hbm, ⟨5, _⟩ => ⟨S32x3x224x224, .f32⟩
  | .hbm, ⟨6, _⟩ => ⟨S32x3x224x224, .f32⟩
  | .hbm, ⟨7, _⟩ => ⟨S32x3x224x224, .f32⟩
  | .hbm, ⟨8, _⟩ => ⟨S32x3x224x224, .f32⟩
  | .hbm, ⟨9, _⟩ => ⟨S32x3x224x224, .f32⟩
  | .hbm, ⟨10, _⟩ => ⟨S32x3x224x224, .f32⟩
  | .hbm, ⟨11, _⟩ => ⟨S32x3x224x224, .f32⟩
  | .hbm, ⟨12, _⟩ => ⟨S32x3x224x224, .f32⟩
  | .hbm, ⟨13, _⟩ => ⟨S32x3x224x224, .f32⟩
  | .hbm, ⟨14, _⟩ => ⟨S32x3x224x224, .f32⟩
  | .hbm, ⟨15, _⟩ => ⟨S32x3x224x224, .f32⟩
  | .hbm, ⟨16, _⟩ => ⟨S32x3x224x224, .f32⟩
  | .hbm, ⟨17, _⟩ => ⟨S32x3x224x224, .f32⟩
  | .hbm, ⟨18, _⟩ => ⟨S32x3x224x224, .f32⟩
  | .hbm, ⟨19, _⟩ => ⟨S32x3x224x224, .f32⟩
  | .hbm, ⟨20, _⟩ => ⟨S32x3x224x224, .f32⟩
  | .hbm, ⟨21, _⟩ => ⟨S32x3x224x224, .f32⟩
  | .hbm, ⟨22, _⟩ => ⟨S32x3x224x224, .f32⟩
  | .hbm, ⟨23, _⟩ => ⟨S32x3x224x224, .f32⟩
  | .hbm, ⟨24, _⟩ => ⟨S32x3x224x224, .f32⟩
  | .hbm, ⟨25, _⟩ => ⟨S32x3x224x224, .f32⟩
  | .hbm, ⟨26, _⟩ => ⟨S32x3x224x224, .f32⟩
  | .hbm, ⟨27, _⟩ => ⟨S32x3x224x224, .f32⟩
  | .hbm, ⟨28, _⟩ => ⟨S32x3x224x224, .f32⟩
  | .hbm, ⟨29, _⟩ => ⟨S32x3x224x224, .f32⟩
  | .hbm, ⟨30, _⟩ => ⟨S32x3x1x224x224, .f32⟩
  | .hbm, ⟨31, _⟩ => ⟨S32x3x1x224x224, .f32⟩
  | .hbm, ⟨32, _⟩ => ⟨S32x3x1x224x224, .f32⟩
  | .hbm, ⟨33, _⟩ => ⟨S32x3x1x224x224, .f32⟩
  | .hbm, ⟨34, _⟩ => ⟨S32x3x1x224x224, .f32⟩
  | .hbm, ⟨35, _⟩ => ⟨S32x3x1x224x224, .f32⟩
  | .hbm, ⟨36, _⟩ => ⟨S32x3x1x224x224, .f32⟩
  | .hbm, ⟨37, _⟩ => ⟨S32x3x1x224x224, .f32⟩
  | .hbm, ⟨38, _⟩ => ⟨S32x3x1x224x224, .f32⟩
  | .hbm, ⟨39, _⟩ => ⟨S32x3x1x224x224, .f32⟩
  | .hbm, ⟨40, _⟩ => ⟨S32x3x1x224x224, .f32⟩
  | .hbm, ⟨41, _⟩ => ⟨S32x3x1x224x224, .f32⟩
  | .hbm, ⟨42, _⟩ => ⟨S32x3x1x224x224, .f32⟩
  | .hbm, ⟨43, _⟩ => ⟨S32x3x1x224x224, .f32⟩
  | .hbm, ⟨44, _⟩ => ⟨S32x3x1x224x224, .f32⟩
  | .hbm, ⟨45, _⟩ => ⟨S32x3x1x224x224, .f32⟩
  | .hbm, ⟨46, _⟩ => ⟨S32x3x1x224x224, .f32⟩
  | .hbm, ⟨47, _⟩ => ⟨S32x3x1x224x224, .f32⟩
  | .hbm, ⟨48, _⟩ => ⟨S32x3x1x224x224, .f32⟩
  | .hbm, ⟨49, _⟩ => ⟨S32x3x1x224x224, .f32⟩
  | .hbm, ⟨50, _⟩ => ⟨S32x3x1x224x224, .f32⟩
  | .hbm, ⟨51, _⟩ => ⟨S32x3x1x224x224, .f32⟩
  | .hbm, ⟨52, _⟩ => ⟨S32x3x1x224x224, .f32⟩
  | .hbm, ⟨53, _⟩ => ⟨S32x3x1x224x224, .f32⟩
  | .hbm, ⟨54, _⟩ => ⟨S32x3x1x224x224, .f32⟩
  | .hbm, ⟨55, _⟩ => ⟨S32x3x16x224x224, .f32⟩
  | .hbm, ⟨56, _⟩ => ⟨S32x3x9x224x224, .f32⟩
  | .hbm, ⟨57, _⟩ => ⟨S32x3x25x224x224, .f32⟩
  | .hbm, ⟨58, _⟩ => ⟨S32x75x50176, .f32⟩
  | .hbm, ⟨59, _⟩ => ⟨S32x50176x75, .f32⟩
  | .hbm, ⟨60, _⟩ => ⟨S32x50176x75, .f32⟩
  | .hbm, ⟨61, _⟩ => ⟨S_, .f32⟩
  | .hbm, ⟨62, _⟩ => ⟨S32x50176, .f32⟩
  | .hbm, ⟨63, _⟩ => ⟨S64x75, .f32⟩
  | .hbm, ⟨64, _⟩ => ⟨S_, .f32⟩
  | .hbm, ⟨65, _⟩ => ⟨S64, .f32⟩
  | .hbm, ⟨66, _⟩ => ⟨S32x50176x64, .f32⟩
  | .hbm, ⟨67, _⟩ => ⟨S32x50176x1, .f32⟩
  | .hbm, ⟨68, _⟩ => ⟨S1x1x64, .f32⟩
  | .hbm, ⟨69, _⟩ => ⟨S32x50176x64, .f32⟩
  | .hbm, ⟨70, _⟩ => ⟨S32x50176x64, .f32⟩
  | .hbm, ⟨71, _⟩ => ⟨S32x50176x64, .f32⟩
  | .hbm, ⟨72, _⟩ => ⟨S_, .f32⟩
  | .hbm, ⟨73, _⟩ => ⟨S32x50176x64, .f32⟩
  | .hbm, ⟨74, _⟩ => ⟨S32x50176x64, .f32⟩
  | .hbm, ⟨75, _⟩ => ⟨S32x50176x64, .f32⟩
  | .hbm, ⟨76, _⟩ => ⟨S_, .f32⟩
  | .hbm, ⟨77, _⟩ => ⟨S32x50176x64, .f32⟩
  | .hbm, ⟨78, _⟩ => ⟨S32x50176x64, .f32⟩
  | .hbm, ⟨79, _⟩ => ⟨S32x50176x64, .f32⟩
  | .hbm, ⟨80, _⟩ => ⟨S32x64x50176, .f32⟩
  | .hbm, ⟨81, _⟩ => ⟨S32x64x224x224, .f32⟩
  | _, _ => ⟨S32x3x224x224, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩
abbrev main_v35 : Ref sig .tc := ⟨.hbm, 39, rfl⟩
abbrev main_v36 : Ref sig .tc := ⟨.hbm, 40, rfl⟩
abbrev main_v37 : Ref sig .tc := ⟨.hbm, 41, rfl⟩
abbrev main_v38 : Ref sig .tc := ⟨.hbm, 42, rfl⟩
abbrev main_v39 : Ref sig .tc := ⟨.hbm, 43, rfl⟩
abbrev main_v40 : Ref sig .tc := ⟨.hbm, 44, rfl⟩
abbrev main_v41 : Ref sig .tc := ⟨.hbm, 45, rfl⟩
abbrev main_v42 : Ref sig .tc := ⟨.hbm, 46, rfl⟩
abbrev main_v43 : Ref sig .tc := ⟨.hbm, 47, rfl⟩
abbrev main_v44 : Ref sig .tc := ⟨.hbm, 48, rfl⟩
abbrev main_v45 : Ref sig .tc := ⟨.hbm, 49, rfl⟩
abbrev main_v46 : Ref sig .tc := ⟨.hbm, 50, rfl⟩
abbrev main_v47 : Ref sig .tc := ⟨.hbm, 51, rfl⟩
abbrev main_v48 : Ref sig .tc := ⟨.hbm, 52, rfl⟩
abbrev main_v49 : Ref sig .tc := ⟨.hbm, 53, rfl⟩
abbrev main_v50 : Ref sig .tc := ⟨.hbm, 54, rfl⟩
abbrev main_v51 : Ref sig .tc := ⟨.hbm, 55, rfl⟩
abbrev main_v52 : Ref sig .tc := ⟨.hbm, 56, rfl⟩
abbrev main_v53 : Ref sig .tc := ⟨.hbm, 57, rfl⟩
abbrev main_v54 : Ref sig .tc := ⟨.hbm, 58, rfl⟩
abbrev main_v55 : Ref sig .tc := ⟨.hbm, 59, rfl⟩
abbrev main_v56 : Ref sig .tc := ⟨.hbm, 60, rfl⟩
abbrev main_cst : Ref sig .tc := ⟨.hbm, 61, rfl⟩
abbrev main_v57 : Ref sig .tc := ⟨.hbm, 62, rfl⟩
abbrev main_v58 : Ref sig .tc := ⟨.hbm, 63, rfl⟩
abbrev main_cst_0 : Ref sig .tc := ⟨.hbm, 64, rfl⟩
abbrev main_v59 : Ref sig .tc := ⟨.hbm, 65, rfl⟩
abbrev main_v60 : Ref sig .tc := ⟨.hbm, 66, rfl⟩
abbrev main_v61 : Ref sig .tc := ⟨.hbm, 67, rfl⟩
abbrev main_v62 : Ref sig .tc := ⟨.hbm, 68, rfl⟩
abbrev main_v63 : Ref sig .tc := ⟨.hbm, 69, rfl⟩
abbrev main_v64 : Ref sig .tc := ⟨.hbm, 70, rfl⟩
abbrev main_v65 : Ref sig .tc := ⟨.hbm, 71, rfl⟩
abbrev main_cst_1 : Ref sig .tc := ⟨.hbm, 72, rfl⟩
abbrev main_v66 : Ref sig .tc := ⟨.hbm, 73, rfl⟩
abbrev main_v67 : Ref sig .tc := ⟨.hbm, 74, rfl⟩
abbrev main_v68 : Ref sig .tc := ⟨.hbm, 75, rfl⟩
abbrev main_cst_2 : Ref sig .tc := ⟨.hbm, 76, rfl⟩
abbrev main_v69 : Ref sig .tc := ⟨.hbm, 77, rfl⟩
abbrev main_v70 : Ref sig .tc := ⟨.hbm, 78, rfl⟩
abbrev main_v71 : Ref sig .tc := ⟨.hbm, 79, rfl⟩
abbrev main_v72 : Ref sig .tc := ⟨.hbm, 80, rfl⟩
abbrev main_v73 : Ref sig .tc := ⟨.hbm, 81, rfl⟩

abbrev nD : Nat := 1
abbrev τ : Topo := Topo.v7x

variable {F : FTy → Type} [FloatOps F]

class Facts₀ : Prop where
  pads_S32x3x224x224_S32x3x228x228_000_000_220_220 : S32x3x224x224.Pads (![0, 0, 2, 2] : Fin 4 → Nat) ![0, 0, 2, 2] ![0, 0, 0, 0] S32x3x228x228
  h_S_ : 0 < S_.numel
  slices_S32x3x228x228_S32x3x224x224_0_0_0_0 : S32x3x228x228.Slices ![0, 0, 0, 0] S32x3x224x224
  slices_S32x3x228x228_S32x3x224x224_0_0_0_1 : S32x3x228x228.Slices ![0, 0, 0, 1] S32x3x224x224
  slices_S32x3x228x228_S32x3x224x224_0_0_0_2 : S32x3x228x228.Slices ![0, 0, 0, 2] S32x3x224x224
  slices_S32x3x228x228_S32x3x224x224_0_0_0_3 : S32x3x228x228.Slices ![0, 0, 0, 3] S32x3x224x224
  slices_S32x3x228x228_S32x3x224x224_0_0_0_4 : S32x3x228x228.Slices ![0, 0, 0, 4] S32x3x224x224
  slices_S32x3x228x228_S32x3x224x224_0_0_1_0 : S32x3x228x228.Slices ![0, 0, 1, 0] S32x3x224x224
  slices_S32x3x228x228_S32x3x224x224_0_0_1_1 : S32x3x228x228.Slices ![0, 0, 1, 1] S32x3x224x224
  slices_S32x3x228x228_S32x3x224x224_0_0_1_2 : S32x3x228x228.Slices ![0, 0, 1, 2] S32x3x224x224
  slices_S32x3x228x228_S32x3x224x224_0_0_1_3 : S32x3x228x228.Slices ![0, 0, 1, 3] S32x3x224x224
  slices_S32x3x228x228_S32x3x224x224_0_0_1_4 : S32x3x228x228.Slices ![0, 0, 1, 4] S32x3x224x224
  slices_S32x3x228x228_S32x3x224x224_0_0_2_0 : S32x3x228x228.Slices ![0, 0, 2, 0] S32x3x224x224
  slices_S32x3x228x228_S32x3x224x224_0_0_2_1 : S32x3x228x228.Slices ![0, 0, 2, 1] S32x3x224x224
  slices_S32x3x228x228_S32x3x224x224_0_0_2_2 : S32x3x228x228.Slices ![0, 0, 2, 2] S32x3x224x224
  slices_S32x3x228x228_S32x3x224x224_0_0_2_3 : S32x3x228x228.Slices ![0, 0, 2, 3] S32x3x224x224
  slices_S32x3x228x228_S32x3x224x224_0_0_2_4 : S32x3x228x228.Slices ![0, 0, 2, 4] S32x3x224x224
  slices_S32x3x228x228_S32x3x224x224_0_0_3_0 : S32x3x228x228.Slices ![0, 0, 3, 0] S32x3x224x224
  slices_S32x3x228x228_S32x3x224x224_0_0_3_1 : S32x3x228x228.Slices ![0, 0, 3, 1] S32x3x224x224
  slices_S32x3x228x228_S32x3x224x224_0_0_3_2 : S32x3x228x228.Slices ![0, 0, 3, 2] S32x3x224x224
  slices_S32x3x228x228_S32x3x224x224_0_0_3_3 : S32x3x228x228.Slices ![0, 0, 3, 3] S32x3x224x224
  slices_S32x3x228x228_S32x3x224x224_0_0_3_4 : S32x3x228x228.Slices ![0, 0, 3, 4] S32x3x224x224
  slices_S32x3x228x228_S32x3x224x224_0_0_4_0 : S32x3x228x228.Slices ![0, 0, 4, 0] S32x3x224x224
  slices_S32x3x228x228_S32x3x224x224_0_0_4_1 : S32x3x228x228.Slices ![0, 0, 4, 1] S32x3x224x224
  slices_S32x3x228x228_S32x3x224x224_0_0_4_2 : S32x3x228x228.Slices ![0, 0, 4, 2] S32x3x224x224
  slices_S32x3x228x228_S32x3x224x224_0_0_4_3 : S32x3x228x228.Slices ![0, 0, 4, 3] S32x3x224x224
  slices_S32x3x228x228_S32x3x224x224_0_0_4_4 : S32x3x228x228.Slices ![0, 0, 4, 4] S32x3x224x224
  bcast_S32x3x224x224_S32x3x1x224x224_0_1_3_4 : S32x3x224x224.BroadcastsInDim S32x3x1x224x224 (![0, 1, 3, 4] : Fin 4 → Fin S32x3x1x224x224.rank)
  concatenates_S32x3x1x224x224_S32x3x1x224x224_S32x3x1x224x224_S32x3x1x224x224_S32x3x1x224x224_S32x3x1x224x224_S32x3x1x224x224_S32x3x1x224x224_S32x3x1x224x224_S32x3x1x224x224_S32x3x1x224x224_S32x3x1x224x224_S32x3x1x224x224_S32x3x1x224x224_S32x3x1x224x224_S32x3x1x224x224_S32x3x16x224x224_d2 : Shape.Concatenates [S32x3x1x224x224, S32x3x1x224x224, S32x3x1x224x224, S32x3x1x224x224, S32x3x1x224x224, S32x3x1x224x224, S32x3x1x224x224, S32x3x1x224x224, S32x3x1x224x224, S32x3x1x224x224, S32x3x1x224x224, S32x3x1x224x224, S32x3x1x224x224, S32x3x1x224x224, S32x3x1x224x224, S32x3x1x224x224] S32x3x16x224x224 2
  concatenates_S32x3x1x224x224_S32x3x1x224x224_S32x3x1x224x224_S32x3x1x224x224_S32x3x1x224x224_S32x3x1x224x224_S32x3x1x224x224_S32x3x1x224x224_S32x3x1x224x224_S32x3x9x224x224_d2 : Shape.Concatenates [S32x3x1x224x224, S32x3x1x224x224, S32x3x1x224x224, S32x3x1x224x224, S32x3x1x224x224, S32x3x1x224x224, S32x3x1x224x224, S32x3x1x224x224, S32x3x1x224x224] S32x3x9x224x224 2
  concatenates_S32x3x16x224x224_S32x3x9x224x224_S32x3x25x224x224_d2 : Shape.Concatenates [S32x3x16x224x224, S32x3x9x224x224] S32x3x25x224x224 2
  shapeCasts_S32x3x25x224x224_S32x75x50176 : S32x3x25x224x224.ShapeCasts S32x75x50176
  transposes_S32x75x50176_S32x50176x75_0_2_1 : S32x75x50176.Transposes [0, 2, 1] S32x50176x75
  reducesTo_S32x50176x75_S32x50176_d2 : S32x50176x75.ReducesTo [2] S32x50176
  reducesTo_S64x75_S64_d1 : S64x75.ReducesTo [1] S64
  bcast_S32x50176_S32x50176x1_0_1 : S32x50176.BroadcastsInDim S32x50176x1 (![0, 1] : Fin 2 → Fin S32x50176x1.rank)
  bcast_S64_S1x1x64_2 : S64.BroadcastsInDim S1x1x64 (![2] : Fin 1 → Fin S1x1x64.rank)
  bcast_S32x50176x1_S32x50176x64_0_1_2 : S32x50176x1.BroadcastsInDim S32x50176x64 (![0, 1, 2] : Fin 3 → Fin S32x50176x64.rank)
  bcast_S1x1x64_S32x50176x64_0_1_2 : S1x1x64.BroadcastsInDim S32x50176x64 (![0, 1, 2] : Fin 3 → Fin S32x50176x64.rank)
  bcast_S_S32x50176x64 : S_.BroadcastsInDim S32x50176x64 (![] : Fin 0 → Fin S32x50176x64.rank)
  transposes_S32x50176x64_S32x64x50176_0_2_1 : S32x50176x64.Transposes [0, 2, 1] S32x64x50176
  shapeCasts_S32x64x50176_S32x64x224x224 : S32x64x50176.ShapeCasts S32x64x224x224
  dot_S32x50176x75_S64x75_S32x50176x64_2_1_01_0_n_n_wf : DotDims.WF S32x50176x75 S64x75 S32x50176x64 [2] [1] [0, 1] [0] [] []

variable [Facts₀]

def dot_S32x50176x75_S64x75_S32x50176x64_2_1_01_0_n_n : DotDims S32x50176x75 S64x75 S32x50176x64 where
  lhsContracting := [2]
  rhsContracting := [1]
  lhsNonContracting := [0, 1]
  rhsNonContracting := [0]
  lhsBatch := []
  rhsBatch := []
  wf := dot_S32x50176x75_S64x75_S32x50176x64_2_1_01_0_n_n_wf

class Facts : Prop extends Facts₀ where

variable [Facts]
-- ==== Proof.Spec.lean ====
/-
  The distance map, as one function of the zero-padded images and the prototypes.

  For image `b`, output position `l` (row `l / 224`, column `l % 224` of the 224 × 224 output) the receptive field is the
  5 × 5 window of all three channels of the padded image with its top-left corner at that row and column; entry
  `d = 25 c + 5 kh + kw` of it is the padded image at channel `c`, row `l / 224 + kh`, column `l % 224 + kw`. The result at
  (`b`, prototype `o`, `l`) is the Euclidean distance between that field and row `o` of the prototypes, computed as
  `sqrt (max (|field|² + |proto|² − 2 · ⟨field, proto⟩) 0)` on the extended reals.
-/
import Idealize.ShloMosaic.PureOps.Ideal
import Idealize.ShloMosaic.Lib.ValueIdx

noncomputable section

open scoped BigOperators

namespace Cert.Spec

open Idealize.ShloMosaic Idealize.ShloMosaic.ValueIdx

/-- The padded images: 32 images, 3 channels, 228 × 228. -/
abbrev SPad : Shape := ⟨4, ![32, 3, 228, 228]⟩
/-- The prototypes: 64 rows of 75 entries. -/
abbrev SWt : Shape := ⟨2, ![64, 75]⟩
/-- The distances: 32 images, 64 prototypes, 224 · 224 output positions. -/
abbrev SDist : Shape := ⟨3, ![32, 64, 50176]⟩

/-- Where entry `d` of the receptive field of image `b` at output position `l` sits in the padded images. -/
def fieldIdx (b : Fin 32) (l : Fin 50176) (d : Fin 75) : SPad.Idx :=
  ix4 b ⟨d.val / 25, by have := d.isLt; omega⟩
    ⟨l.val / 224 + d.val % 25 / 5, by have := l.isLt; have := d.isLt; omega⟩
    ⟨l.val % 224 + d.val % 25 % 5, by have := l.isLt; have := d.isLt; omega⟩

/-- Entry `d` of that receptive field. -/
def field (xp : SPad.Idx → EReal) (b : Fin 32) (l : Fin 50176) (d : Fin 75) : EReal := xp (fieldIdx b l d)

/-- The squared norm of the receptive field. -/
def fieldSq (xp : SPad.Idx → EReal) (b : Fin 32) (l : Fin 50176) : EReal :=
  ∑ d : Fin 75, field xp b l d * field xp b l d

/-- The squared norm of prototype `o`. -/
def protoSq (w : SWt.Idx → EReal) (o : Fin 64) : EReal := ∑ d : Fin 75, w (ix2 o d) * w (ix2 o d)

/-- The inner product of the receptive field with prototype `o`. -/
def cross (xp : SPad.Idx → EReal) (w : SWt.Idx → EReal) (b : Fin 32) (o : Fin 64) (l : Fin 50176) : EReal :=
  ∑ d : Fin 75, field xp b l d * w (ix2 o d)

/-- The distance from the squared norms and the inner product: `sqrt (max (p + n − 2 x) 0)`, the `2` and the `0` as the
    float words both programs carry. -/
def distOf (p n x : EReal) : EReal :=
  Ideal.sqrt (max ((p + n) - Ideal.ofBits .f32 0x40000000#32 * x) (Ideal.ofBits .f32 0x00000000#32))

/-- The distance map. -/
def dist (xp : SPad.Idx → EReal) (w : SWt.Idx → EReal) : SDist.Idx → EReal := fun i =>
  distOf (fieldSq xp (i 0) (i 2)) (protoSq w (i 1)) (cross xp w (i 0) (i 1) (i 2))

/-! ## One tile of 32 output rows

The kernel works on tiles of 32 output rows: positions `l = 224 r + q` inside the tile, `r < 32`, `q < 224`, computed from a
slab of 36 padded rows (the tile's 32 rows and the 4 below them) of all three channels. -/

/-- Position (`r`, `q`) inside a tile of 32 rows of 224, flattened. -/
def tilePos (r : Fin 32) (q : Fin 224) : Fin 7168 := ⟨r.val * 224 + q.val, by have := r.isLt; have := q.isLt; omega⟩

/-- Where entry `d = 25 c + 5 kh + kw` of the window at (`r`, `q`) sits in the slab of 3 × 36 × 228: channel `c`, slab row
    `r + kh`, column `q + kw`. -/
def haloIdx (d : Fin 75) (r : Fin 32) (q : Fin 224) : (⟨3, ![3, 36, 228]⟩ : Shape).Idx :=
  ix3 ⟨d.val / 25, by have := d.isLt; omega⟩
    ⟨r.val + d.val % 25 / 5, by have := r.isLt; have := d.isLt; omega⟩
    ⟨q.val + d.val % 25 % 5, by have := q.isLt; have := d.isLt; omega⟩

end Cert.Spec

end
-- ==== Proof.BlockReads.lean ====
/-
  What one grid point of the distance kernel reads and leaves.

  The grid is 32 images × 7 tiles of 32 output rows. At point (image `b`, tile `s`) the body reads, from its image's padded
  block [1, 3, 228, 228], the slab of the 36 rows `32 s … 32 s + 35` of all three channels, and the whole prototype block
  [64, 75]; it leaves in its output block [1, 64, 7168] ONE stored value: the tile's distances as a function of that slab
  and of the prototypes. This module names the slab, shows that the stored value is that function of it, reads the
  slab and the blocks at an index of the arrays behind them, and decides the index maps over the grid.
-/
import proofs.«128501_j40114994544664_1_alg».proof.Proof.Gen.KernelIdeal.Frame
import proofs.«128501_j40114994544664_1_alg».proof.Proof.Spec
import Idealize.ShloMosaic.Lib.Pipeline.Value
import Idealize.ShloMosaic.Lib.ValueIdx
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.Blocks

open Cert.KernelIdeal Cert.KernelIdeal.Gen

variable {F : FTy → Type} [FloatOps F]

theorem hz3 : (![0, 0, 0] : Fin 3 → Nat) = fun _ => 0 := funext fun a => by fin_cases a <;> rfl
theorem hz2 : (![0, 0] : Fin 2 → Nat) = fun _ => 0 := funext fun a => by fin_cases a <;> rfl

/-- The slab the body reads: 36 rows of all three channels of its image, from row `32 · (tile number)` on. -/
def slab (i : grid0.Coords) (x0 : Vec F S1x3x228x228 .f32) : Vec F S1x3x36x228 .f32 :=
  View.ld x0 (Rect.unit (s := S1x3x228x228) (k0_off1 i) S1x3x36x228.size (k0_off1_inb i))

/-- The body's one store covers its output block, so what the block holds afterwards is the stored value: the tile's
    distances computed from the slab and the prototypes. -/
theorem piece (c : Dev nD) (i : grid0.Coords) (a2 : Memref sig .tc .vmem S1x3x228x228 .f32) (h2 : a2.IsWhole)
    (a3 : Memref sig .tc .vmem S64x75 .f32) (h3 : a3.IsWhole) (a4 : Memref sig .tc .vmem S1x64x7168 .f32) (h4 : a4.IsWhole)
    (x0 : Vec F S1x3x228x228 .f32) (x1 : Vec F S64x75 .f32) :
    out0_A_2 c i a2 h2 a3 h3 a4 h4 x0 x1
      = k0_pay1 (k0_pay6 (k0_pay3 (slab i x0)) (k0_pay4 (slab i x0)) (k0_pay5 (slab i x0))) (k0_pay7 (k0_pay2 (slab i x0))) x1 := by
  unfold out0_A_2
  rw [View.read_writes_eq_canon _ _ _ (cover0_A_2 c i a2 h2 a3 h3 a4 h4 x0 x1)]
  unfold kernelRun0_A
  dsimp only
  sl_unfold_words
  rw [View.canon_unit_zero hz3]
  simp only [View.readAt_eq_ld, h2.read_unread, h3.read_unread, h4.read_unread, View.ld_unit_zero (S := S64x75) hz2]
  rfl

/-- The slab at (channel, slab row, column) is the image block at (channel, first slab row + slab row, column). -/
theorem slab_apply (i : grid0.Coords) (x0 : Vec F S1x3x228x228 .f32) (u : Fin 1) (ch : Fin 3) (r' : Fin 36) (q' : Fin 228)
    (k : S1x3x228x228.Idx) (hk0 : (k 0).val = 0) (hk1 : (k 1).val = ch.val) (hk2 : (k 2).val = k0_off1 i 2 + r'.val)
    (hk3 : (k 3).val = q'.val) :
    slab i x0 (ix4 u ch r' q') = x0 k := by
  show x0 ((Rect.unit (s := S1x3x228x228) (k0_off1 i) S1x3x36x228.size (k0_off1_inb i)).idx (ix4 u ch r' q')) = x0 k
  congr 1
  funext a
  apply Fin.ext
  match a with
  | ⟨0, _⟩ => show k0_off1 i 0 + 1 * u.val = (k 0).val; rw [hk0, show k0_off1 i 0 = 0 from rfl]; have := u.isLt; omega
  | ⟨1, _⟩ => show k0_off1 i 1 + 1 * ch.val = (k 1).val; rw [hk1, show k0_off1 i 1 = 0 from rfl]; omega
  | ⟨2, _⟩ => show k0_off1 i 2 + 1 * r'.val = (k 2).val; rw [hk2]; omega
  | ⟨3, _⟩ => show k0_off1 i 3 + 1 * q'.val = (k 3).val; rw [hk3, show k0_off1 i 3 = 0 from rfl]; omega

/-- The index maps, decided over the 224 grid points: the image window follows the output window's image coordinate and
    is whole on the other axes; the prototype window never moves; the slab starts at row 32 · (the output window's tile
    coordinate); the output window's coordinates stay in their ranges. -/
theorem idx_facts : ∀ t : Fin cfg0.N,
    win0_0.index t (0 : Fin 4) = win0_2.index t (0 : Fin 3) ∧ win0_0.index t (1 : Fin 4) = 0
    ∧ win0_0.index t (2 : Fin 4) = 0 ∧ win0_0.index t (3 : Fin 4) = 0
    ∧ win0_1.index t (0 : Fin 2) = 0 ∧ win0_1.index t (1 : Fin 2) = 0
    ∧ win0_2.index t (1 : Fin 3) = 0 ∧ k0_off1 (grid0.coords t) 2 = 32 * win0_2.index t (2 : Fin 3)
    ∧ win0_2.index t (0 : Fin 3) ≤ 31 ∧ win0_2.index t (2 : Fin 3) ≤ 6 :=
  (by decide +kernel : ∀ t : Fin grid0.N, _)

/-- Every (image, tile) pair is some point's output block. -/
theorem idx_onto : ∀ (q0 : Fin 32) (q2 : Fin 7), ∃ t : Fin cfg0.N, win0_2.index t = ![q0.val, 0, q2.val] :=
  (by decide +kernel : ∀ (q0 : Fin 32) (q2 : Fin 7), ∃ t : Fin grid0.N, win0_2.index t = ![q0.val, 0, q2.val])

variable (m : (ℓ : Loc nD τ sig) → Buf (Elt F) ℓ)

/-- The padded images as the region finds them, and the prototypes, at their literal types. -/
abbrev padded (c : Dev nD) : Vec F S32x3x228x228 .f32 := V m c main_v0
abbrev protos (c : Dev nD) : Vec F S64x75 .f32 := V m c main_arg1
/-- The image block and the prototype block at a point, at their literal types. -/
abbrev imgBlk (c : Dev nD) (t : Fin cfg0.N) : Vec F S1x3x228x228 .f32 := iblk m c 0 t
abbrev protoBlk (c : Dev nD) (t : Fin cfg0.N) : Vec F S64x75 .f32 := iblk m c 1 t

/-- The image block at a point is the image the output window's first coordinate names. -/
theorem imgBlk_apply (c : Dev nD) (t : Fin cfg0.N) (y : S1x3x228x228.Idx) (k : S32x3x228x228.Idx)
    (hk0 : (k 0).val = win0_2.index t (0 : Fin 3)) (hk1 : (k 1).val = (y 1).val) (hk2 : (k 2).val = (y 2).val)
    (hk3 : (k 3).val = (y 3).val) :
    imgBlk m c t y = padded m c k := by
  obtain ⟨e0, e1, e2, e3, -⟩ := idx_facts t
  show V m c main_v0 (((cfg0.win 0).blk t).view.emb y) = V m c main_v0 k
  congr 1
  funext a
  apply Fin.ext
  match a with
  | ⟨0, _⟩ => show win0_0.index t (0 : Fin 4) * 1 + 1 * (y 0).val = (k 0).val; have h0 : (y 0).val < 1 := (y 0).isLt; rw [hk0, e0]; omega
  | ⟨1, _⟩ => show win0_0.index t (1 : Fin 4) * 3 + 1 * (y 1).val = (k 1).val; rw [hk1, e1]; omega
  | ⟨2, _⟩ => show win0_0.index t (2 : Fin 4) * 228 + 1 * (y 2).val = (k 2).val; rw [hk2, e2]; omega
  | ⟨3, _⟩ => show win0_0.index t (3 : Fin 4) * 228 + 1 * (y 3).val = (k 3).val; rw [hk3, e3]; omega

/-- The prototype block at every point is the whole prototype array. -/
theorem protoBlk_eq (c : Dev nD) (t : Fin cfg0.N) : protoBlk m c t = protos m c := by
  obtain ⟨-, -, -, -, e4, e5, -⟩ := idx_facts t
  funext y
  show V m c main_arg1 (((cfg0.win 1).blk t).view.emb y) = V m c main_arg1 y
  congr 1
  funext a
  apply Fin.ext
  match a with
  | ⟨0, _⟩ => show win0_1.index t (0 : Fin 2) * 64 + 1 * (y 0).val = (y 0).val; rw [e4]; omega
  | ⟨1, _⟩ => show win0_1.index t (1 : Fin 2) * 75 + 1 * (y 1).val = (y 1).val; rw [e5]; omega

end Cert.KernelIdeal.Blocks

end
-- ==== Proof.HaloWindows.lean ====
/-
  The patch matrix of one tile. The kernel cuts 25 windows of 3 × 32 × 224 out of the slab of 3 × 36 × 228 (window
  k = 5 kh + kw starts at row kh, column kw), stacks them along a new axis between the channel and the rows, and
  flattens the result twice: (channel, k) to one axis of 75 = 3 · 25 and (row, column) to one axis of 7168 = 32 · 224.
  Read at row d and column 224 r + q this is the slab at channel d / 25, row r + (d % 25) / 5, column q + (d % 25) % 5:
  entry d of the 5 × 5 × 3 window whose top-left corner is at (r, q).
-/
import proofs.«128501_j40114994544664_1_alg».proof.Proof.Gen.KernelIdeal.Skeleton
import proofs.«128501_j40114994544664_1_alg».proof.Proof.Spec
import Idealize.ShloMosaic.Lib.Pipeline.Value
import Idealize.ShloMosaic.Lib.ValueIdx

noncomputable section

namespace Cert.KernelIdeal.Tile

open Idealize.ShloMosaic Idealize.ShloMosaic.ValueIdx

/-- One shifted window of the slab, with a unit axis put in at position 1, read at (c, 0, r, q): the slab at
    (c, r + a, q + b). -/
theorem window_apply {α : Type} (v4 : S3x36x228.Idx → α) (a b : Nat) (h : S3x36x228.Slices ![0, a, b] S3x32x224)
    (hc : S3x32x224.ShapeCasts S3x1x32x224) (c : Fin 3) (z : Fin 1) (r : Fin 32) (q : Fin 224)
    (r' : Fin 36) (q' : Fin 228) (hr : r'.val = r.val + a) (hq : q'.val = q.val + b) :
    shapeCast S3x1x32x224 (extractStridedSlice S3x32x224 ![0, a, b] v4 h) hc (ix4 c z r q) = v4 (ix3 c r' q') := by
  refine (shapeCast_apply _ hc (ix4 c z r q) (ix3 c r q) ?_).trans ?_
  · rw [Shape.rowMajor_val_three, Shape.rowMajor_val_four]
    show (c.val * 32 + r.val) * 224 + q.val = ((c.val * 1 + z.val) * 32 + r.val) * 224 + q.val
    have := z.isLt
    omega
  · refine extractStridedSlice_apply _ v4 h (ix3 c r q) (ix3 c r' q') ?_
    intro ax
    match ax with
    | ⟨0, _⟩ => show c.val = 0 + c.val; omega
    | ⟨1, _⟩ => show r'.val = a + r.val; omega
    | ⟨2, _⟩ => show q'.val = b + q.val; omega

/-- Off the concatenation axis the index into a piece and the index into the whole agree. -/
theorem off_axis (c : Fin 3) (z : Fin 1) (k : Fin 25) (r : Fin 32) (q : Fin 224) :
    ∀ b : Fin S3x1x32x224.rank, b.cast (rfl : S3x1x32x224.rank = S3x25x32x224.rank) ≠ 1 →
      ((ix4 c z r q : S3x1x32x224.Idx) b).val = ((ix4 c k r q : S3x25x32x224.Idx) (b.cast rfl)).val := by
  intro b hb
  match b, hb with
  | ⟨0, _⟩, _ => rfl
  | ⟨1, _⟩, hb => exact absurd (Fin.ext rfl) hb
  | ⟨2, _⟩, _ => rfl
  | ⟨3, _⟩, _ => rfl

/- Piece number k = 5 a + b of the concatenation is the window shifted by (a, b): read the concatenation at
   (c, k, r, q) as that piece at (c, 0, r, q), then the piece as the slab at (c, r + a, q + b). -/
set_option hygiene false in
local macro "piece" k:num a:num b:num : tactic => `(tactic|
  (refine (concatenate_apply_piece (t := S3x25x32x224) 1 _ _ _ $k ?_ S3x1x32x224
      (shapeCast S3x1x32x224 (extractStridedSlice S3x32x224 ![0, $a, $b] v4 (by decide)) (by decide)) ?_ rfl $k ?_
      (ix4 (⟨d.val / 25, by have := d.isLt; omega⟩ : Fin 3) (0 : Fin 1) r q) (off_axis _ _ _ r q) ?_).trans ?_
   · show ($k : Nat) < 25; decide
   · rfl
   · simp only [List.take_succ_cons, List.take_zero, List.map_cons, List.map_nil]
     decide
   · show $k + 0 = d.val % 25; omega
   · exact window_apply v4 $a $b _ _ _ _ r q _ _ (by show r.val + d.val % 25 / 5 = r.val + $a; omega)
       (by show q.val + d.val % 25 % 5 = q.val + $b; omega)))

/- The two flattenings, undone: [75, 7168] at (d, 224 r + q) is [75, 32, 224] at (d, r, q), which is [3, 25, 32, 224] at
   (d / 25, d % 25, r, q); each cast keeps the row-major position. What is left is the concatenation read there. -/
set_option hygiene false in
local macro "to_pieces" : tactic => `(tactic|
  (unfold Gen.k0_pay7
   refine (shapeCast_apply _ _ (ix2 d (Cert.Spec.tilePos r q)) (ix3 d r q) ?_).trans ?_
   · rw [Shape.rowMajor_val_three, Shape.rowMajor_val_two]
     show (d.val * 32 + r.val) * 224 + q.val = d.val * 7168 + (r.val * 224 + q.val)
     omega
   refine (shapeCast_apply _ _ (ix3 d r q)
     (ix4 (⟨d.val / 25, by have := d.isLt; omega⟩ : Fin 3) (⟨d.val % 25, by omega⟩ : Fin 25) r q) ?_).trans ?_
   · rw [Shape.rowMajor_val_three, Shape.rowMajor_val_four]
     show (((d.val / 25) * 25 + d.val % 25) * 32 + r.val) * 224 + q.val = (d.val * 32 + r.val) * 224 + q.val
     have : d.val / 25 * 25 + d.val % 25 = d.val := by omega
     rw [this]))

/-- The patch matrix at (d, 224 r + q) when entry d sits in window row 0 (d % 25 / 5 = 0). -/
theorem pay7_apply_row0 {F : FTy → Type} (v4 : FVec F S3x36x228 .f32) (d : Fin 75) (r : Fin 32) (q : Fin 224)
    (ha : d.val % 25 / 5 = 0) :
    Gen.k0_pay7 (F := F) v4 (ix2 d (Cert.Spec.tilePos r q)) = v4 (Cert.Spec.haloIdx d r q) := by
  to_pieces
  rcases (by omega : d.val % 25 = 0 ∨ d.val % 25 = 1 ∨ d.val % 25 = 2 ∨ d.val % 25 = 3 ∨ d.val % 25 = 4) with h | h | h | h | h
  · piece 0 0 0
  · piece 1 0 1
  · piece 2 0 2
  · piece 3 0 3
  · piece 4 0 4

/-- The patch matrix at (d, 224 r + q) when entry d sits in window row 1 (d % 25 / 5 = 1). -/
theorem pay7_apply_row1 {F : FTy → Type} (v4 : FVec F S3x36x228 .f32) (d : Fin 75) (r : Fin 32) (q : Fin 224)
    (ha : d.val % 25 / 5 = 1) :
    Gen.k0_pay7 (F := F) v4 (ix2 d (Cert.Spec.tilePos r q)) = v4 (Cert.Spec.haloIdx d r q) := by
  to_pieces
  rcases (by omega : d.val % 25 = 5 ∨ d.val % 25 = 6 ∨ d.val % 25 = 7 ∨ d.val % 25 = 8 ∨ d.val % 25 = 9) with h | h | h | h | h
  · piece 5 1 0
  · piece 6 1 1
  · piece 7 1 2
  · piece 8 1 3
  · piece 9 1 4

/-- The patch matrix at (d, 224 r + q) when entry d sits in window row 2 (d % 25 / 5 = 2). -/
theorem pay7_apply_row2 {F : FTy → Type} (v4 : FVec F S3x36x228 .f32) (d : Fin 75) (r : Fin 32) (q : Fin 224)
    (ha : d.val % 25 / 5 = 2) :
    Gen.k0_pay7 (F := F) v4 (ix2 d (Cert.Spec.tilePos r q)) = v4 (Cert.Spec.haloIdx d r q) := by
  to_pieces
  rcases (by omega : d.val % 25 = 10 ∨ d.val % 25 = 11 ∨ d.val % 25 = 12 ∨ d.val % 25 = 13 ∨ d.val % 25 = 14) with h | h | h | h | h
  · piece 10 2 0
  · piece 11 2 1
  · piece 12 2 2
  · piece 13 2 3
  · piece 14 2 4

/-- The patch matrix at (d, 224 r + q) when entry d sits in window row 3 (d % 25 / 5 = 3). -/
theorem pay7_apply_row3 {F : FTy → Type} (v4 : FVec F S3x36x228 .f32) (d : Fin 75) (r : Fin 32) (q : Fin 224)
    (ha : d.val % 25 / 5 = 3) :
    Gen.k0_pay7 (F := F) v4 (ix2 d (Cert.Spec.tilePos r q)) = v4 (Cert.Spec.haloIdx d r q) := by
  to_pieces
  rcases (by omega : d.val % 25 = 15 ∨ d.val % 25 = 16 ∨ d.val % 25 = 17 ∨ d.val % 25 = 18 ∨ d.val % 25 = 19) with h | h | h | h | h
  · piece 15 3 0
  · piece 16 3 1
  · piece 17 3 2
  · piece 18 3 3
  · piece 19 3 4

/-- The patch matrix at (d, 224 r + q) when entry d sits in window row 4 (d % 25 / 5 = 4). -/
theorem pay7_apply_row4 {F : FTy → Type} (v4 : FVec F S3x36x228 .f32) (d : Fin 75) (r : Fin 32) (q : Fin 224)
    (ha : d.val % 25 / 5 = 4) :
    Gen.k0_pay7 (F := F) v4 (ix2 d (Cert.Spec.tilePos r q)) = v4 (Cert.Spec.haloIdx d r q) := by
  to_pieces
  rcases (by omega : d.val % 25 = 20 ∨ d.val % 25 = 21 ∨ d.val % 25 = 22 ∨ d.val % 25 = 23 ∨ d.val % 25 = 24) with h | h | h | h | h
  · piece 20 4 0
  · piece 21 4 1
  · piece 22 4 2
  · piece 23 4 3
  · piece 24 4 4

/-- The patch matrix at row d and column 224 r + q is the slab at channel d / 25, row r + (d % 25) / 5,
    column q + (d % 25) % 5. -/
theorem pay7_apply {F : FTy → Type} (v4 : FVec F S3x36x228 .f32) (d : Fin 75) (r : Fin 32) (q : Fin 224) :
    Gen.k0_pay7 (F := F) v4 (ix2 d (Cert.Spec.tilePos r q)) = v4 (Cert.Spec.haloIdx d r q) := by
  rcases (by omega : d.val % 25 / 5 = 0 ∨ d.val % 25 / 5 = 1 ∨ d.val % 25 / 5 = 2 ∨ d.val % 25 / 5 = 3 ∨ d.val % 25 / 5 = 4)
    with h | h | h | h | h
  · exact pay7_apply_row0 v4 d r q h
  · exact pay7_apply_row1 v4 d r q h
  · exact pay7_apply_row2 v4 d r q h
  · exact pay7_apply_row3 v4 d r q h
  · exact pay7_apply_row4 v4 d r q h

end Cert.KernelIdeal.Tile

end
-- ==== Proof.ChainSum.lean ====
/-
  A chain of 25 partial sums regrouped as one sum over 75 entries.

  In an additive commutative monoid, let `g c kh kw` be indexed by a channel `c < 3` and a window offset
  (`kh`, `kw`), `kh, kw < 5`. Adding the 25 channel sums `∑ c, g c kh kw` one after the other, row by row, gives the
  sum of all 75 entries, each entry `d = 25 c + 5 kh + kw` being read back as `c = d / 25`, `kh = d % 25 / 5`,
  `kw = d % 25 % 5`.
-/
import Mathlib.Algebra.BigOperators.Fin
import Mathlib.Logic.Equiv.Fin.Basic

open scoped BigOperators

namespace Cert.Spec

/-- The sum over the 75 entries `d = 25 c + 5 kh + kw`, split into channel, row offset and column offset. -/
theorem sum75_eq_triple {M : Type*} [AddCommMonoid M] (g : Fin 3 → Fin 5 → Fin 5 → M) :
    ∑ d : Fin 75, g ⟨d.val / 25, by omega⟩ ⟨d.val % 25 / 5, by omega⟩ ⟨d.val % 25 % 5, by omega⟩
      = ∑ c : Fin 3, ∑ kh : Fin 5, ∑ kw : Fin 5, g c kh kw := by
  rw [← Equiv.sum_comp (finProdFinEquiv : Fin 3 × Fin 25 ≃ Fin 75), Fintype.sum_prod_type]
  refine Finset.sum_congr rfl fun c _ => ?_
  rw [← Equiv.sum_comp (finProdFinEquiv : Fin 5 × Fin 5 ≃ Fin 25), Fintype.sum_prod_type]
  refine Finset.sum_congr rfl fun kh _ => Finset.sum_congr rfl fun kw _ => ?_
  have hc := c.isLt
  have hh := kh.isLt
  have hw := kw.isLt
  congr 1 <;> (apply Fin.ext; simp only [finProdFinEquiv_apply_val]; omega)

/-- Summing channel first, then the 25 offsets, or the 25 offsets first, then the channel, is the same. -/
theorem triple_comm {M : Type*} [AddCommMonoid M] (g : Fin 3 → Fin 5 → Fin 5 → M) :
    ∑ c : Fin 3, ∑ kh : Fin 5, ∑ kw : Fin 5, g c kh kw = ∑ kh : Fin 5, ∑ kw : Fin 5, ∑ c : Fin 3, g c kh kw := by
  rw [Finset.sum_comm]
  refine Finset.sum_congr rfl fun kh _ => ?_
  rw [Finset.sum_comm]

/-- The left-nested chain of the 25 channel sums, in the order (0,0), (0,1), …, (4,4), is the sum of the 75 entries. -/
theorem chain25_eq_sum {M : Type*} [AddCommMonoid M] (g : Fin 3 → Fin 5 → Fin 5 → M) :
    ((∑ c : Fin 3, g c 0 0) + (∑ c : Fin 3, g c 0 1) + (∑ c : Fin 3, g c 0 2) + (∑ c : Fin 3, g c 0 3)
        + (∑ c : Fin 3, g c 0 4)
      + (∑ c : Fin 3, g c 1 0) + (∑ c : Fin 3, g c 1 1) + (∑ c : Fin 3, g c 1 2) + (∑ c : Fin 3, g c 1 3)
        + (∑ c : Fin 3, g c 1 4)
      + (∑ c : Fin 3, g c 2 0) + (∑ c : Fin 3, g c 2 1) + (∑ c : Fin 3, g c 2 2) + (∑ c : Fin 3, g c 2 3)
        + (∑ c : Fin 3, g c 2 4)
      + (∑ c : Fin 3, g c 3 0) + (∑ c : Fin 3, g c 3 1) + (∑ c : Fin 3, g c 3 2) + (∑ c : Fin 3, g c 3 3)
        + (∑ c : Fin 3, g c 3 4)
      + (∑ c : Fin 3, g c 4 0) + (∑ c : Fin 3, g c 4 1) + (∑ c : Fin 3, g c 4 2) + (∑ c : Fin 3, g c 4 3)
        + (∑ c : Fin 3, g c 4 4))
      = ∑ d : Fin 75, g ⟨d.val / 25, by omega⟩ ⟨d.val % 25 / 5, by omega⟩ ⟨d.val % 25 % 5, by omega⟩ := by
  rw [sum75_eq_triple, triple_comm]
  simp only [Fin.sum_univ_five, add_assoc]

end Cert.Spec
-- ==== Proof.HaloSquares.lean ====
/-
  The squared norm of the 5 × 5 × 3 window, as the kernel adds it up.

  The kernel squares the slab of 3 × 36 × 228 padded entries, sums the squares over the three channels, and then adds the
  25 shifted 32 × 224 windows of that channel sum one after the other, row offset by row offset. Read at position
  (`r`, `q`) of the tile, the result is the sum over the 75 window entries `d = 25 c + 5 kh + kw` of the square of the
  slab at channel `c`, row `r + kh`, column `q + kw`.
-/
import proofs.«128501_j40114994544664_1_alg».proof.Proof.Gen.KernelIdeal.Skeleton
import proofs.«128501_j40114994544664_1_alg».proof.Proof.Spec
import proofs.«128501_j40114994544664_1_alg».proof.Proof.ChainSum
import Idealize.ShloMosaic.Lib.Pipeline.Value
import Idealize.ShloMosaic.Lib.ValueIdx
import Idealize.ShloMosaic.PureOps.Ideal.Laws

noncomputable section

open scoped BigOperators

namespace Cert.KernelIdeal.Tile

open Idealize.ShloMosaic Idealize.ShloMosaic.ValueIdx Idealize.SL.Sem
open Cert.KernelIdeal Cert.KernelIdeal.Gen

/-- The channel sum of squares at slab row `a`, column `b`. -/
theorem pay3_apply (v3 : Vec Ideal S1x3x36x228 .f32) (a : Fin 36) (b : Fin 228) :
    k0_pay3 (F := Ideal) v3 (ix2 a b)
      = ∑ c : Fin 3, k0_pay2 (F := Ideal) v3 (ix3 c a b) * k0_pay2 (F := Ideal) v3 (ix3 c a b) := by
  unfold k0_pay3
  refine (Ideal.multiReduction_add_single _ _ reduces_S3x36x228_S36x228 _ _ (ix2 a b)).trans ?_
  refine Finset.sum_congr rfl fun c _ => ?_
  have hc : reduces_S3x36x228_S36x228.lift (ix2 a b) c = ix3 c a b := by
    funext d
    match d with
    | ⟨0, _⟩ => exact Fin.ext rfl
    | ⟨1, _⟩ => exact Fin.ext rfl
    | ⟨2, _⟩ => exact Fin.ext rfl
  rw [hc]
  rfl

/-- The window of the channel sum shifted by (`kh`, `kw`), read at (`r`, `q`): the channel sum at row `r + kh`, column
    `q + kw` of the slab. -/
theorem slice_apply (v3 : Vec Ideal S1x3x36x228 .f32) (kh kw : Nat) (h : S36x228.Slices ![kh, kw] S32x224)
    (r : Fin 32) (q : Fin 224) (hr : r.val + kh < 36) (hq : q.val + kw < 228) :
    extractStridedSlice S32x224 ![kh, kw] (k0_pay3 (F := Ideal) v3) h (ix2 r q)
      = ∑ c : Fin 3, k0_pay2 (F := Ideal) v3 (ix3 c ⟨r.val + kh, hr⟩ ⟨q.val + kw, hq⟩)
          * k0_pay2 (F := Ideal) v3 (ix3 c ⟨r.val + kh, hr⟩ ⟨q.val + kw, hq⟩) := by
  refine (extractStridedSlice_apply ![kh, kw] _ h (ix2 r q) (ix2 ⟨r.val + kh, hr⟩ ⟨q.val + kw, hq⟩) ?_).trans
    (pay3_apply v3 _ _)
  intro a
  match a with
  | ⟨0, _⟩ => exact Nat.add_comm _ _
  | ⟨1, _⟩ => exact Nat.add_comm _ _

/-- The square of the slab at channel `c`, row `r + kh`, column `q + kw`. -/
def sqAt (v3 : Vec Ideal S1x3x36x228 .f32) (r : Fin 32) (q : Fin 224) (c : Fin 3) (kh kw : Fin 5) : EReal :=
  k0_pay2 (F := Ideal) v3 (ix3 c ⟨r.val + kh.val, by omega⟩ ⟨q.val + kw.val, by omega⟩)
    * k0_pay2 (F := Ideal) v3 (ix3 c ⟨r.val + kh.val, by omega⟩ ⟨q.val + kw.val, by omega⟩)

/-- The kernel's squared window norm at tile position (`r`, `q`): the sum of the squares of the 75 window entries. -/
theorem pay6_apply (v3 : Vec Ideal Cert.KernelIdeal.S1x3x36x228 .f32) (r : Fin 32) (q : Fin 224) :
    Cert.KernelIdeal.Gen.k0_pay6 (F := Ideal) (Cert.KernelIdeal.Gen.k0_pay3 v3) (Cert.KernelIdeal.Gen.k0_pay4 v3)
        (Cert.KernelIdeal.Gen.k0_pay5 v3) (ix1 (Cert.Spec.tilePos r q))
      = ∑ d : Fin 75, Cert.KernelIdeal.Gen.k0_pay2 (F := Ideal) v3 (Cert.Spec.haloIdx d r q)
          * Cert.KernelIdeal.Gen.k0_pay2 (F := Ideal) v3 (Cert.Spec.haloIdx d r q) := by
  unfold k0_pay6
  refine (shapeCast_apply _ shapeCasts_S32x224_S7168 (ix1 (Cert.Spec.tilePos r q)) (ix2 r q) ?_).trans ?_
  · rw [Shape.rowMajor_val_two, Shape.rowMajor_val_one]
    rfl
  unfold k0_pay5 k0_pay4
  show extractStridedSlice S32x224 ![0, 0] (k0_pay3 (F := Ideal) v3) slices_S36x228_o0_0_S32x224 (ix2 r q)
      + extractStridedSlice S32x224 ![0, 1] (k0_pay3 (F := Ideal) v3) slices_S36x228_o0_1_S32x224 (ix2 r q)
      + extractStridedSlice S32x224 ![0, 2] (k0_pay3 (F := Ideal) v3) slices_S36x228_o0_2_S32x224 (ix2 r q)
      + extractStridedSlice S32x224 ![0, 3] (k0_pay3 (F := Ideal) v3) slices_S36x228_o0_3_S32x224 (ix2 r q)
      + extractStridedSlice S32x224 ![0, 4] (k0_pay3 (F := Ideal) v3) slices_S36x228_o0_4_S32x224 (ix2 r q)
      + extractStridedSlice S32x224 ![1, 0] (k0_pay3 (F := Ideal) v3) slices_S36x228_o1_0_S32x224 (ix2 r q)
      + extractStridedSlice S32x224 ![1, 1] (k0_pay3 (F := Ideal) v3) slices_S36x228_o1_1_S32x224 (ix2 r q)
      + extractStridedSlice S32x224 ![1, 2] (k0_pay3 (F := Ideal) v3) slices_S36x228_o1_2_S32x224 (ix2 r q)
      + extractStridedSlice S32x224 ![1, 3] (k0_pay3 (F := Ideal) v3) slices_S36x228_o1_3_S32x224 (ix2 r q)
      + extractStridedSlice S32x224 ![1, 4] (k0_pay3 (F := Ideal) v3) slices_S36x228_o1_4_S32x224 (ix2 r q)
      + extractStridedSlice S32x224 ![2, 0] (k0_pay3 (F := Ideal) v3) slices_S36x228_o2_0_S32x224 (ix2 r q)
      + extractStridedSlice S32x224 ![2, 1] (k0_pay3 (F := Ideal) v3) slices_S36x228_o2_1_S32x224 (ix2 r q)
      + extractStridedSlice S32x224 ![2, 2] (k0_pay3 (F := Ideal) v3) slices_S36x228_o2_2_S32x224 (ix2 r q)
      + extractStridedSlice S32x224 ![2, 3] (k0_pay3 (F := Ideal) v3) slices_S36x228_o2_3_S32x224 (ix2 r q)
      + extractStridedSlice S32x224 ![2, 4] (k0_pay3 (F := Ideal) v3) slices_S36x228_o2_4_S32x224 (ix2 r q)
      + extractStridedSlice S32x224 ![3, 0] (k0_pay3 (F := Ideal) v3) slices_S36x228_o3_0_S32x224 (ix2 r q)
      + extractStridedSlice S32x224 ![3, 1] (k0_pay3 (F := Ideal) v3) slices_S36x228_o3_1_S32x224 (ix2 r q)
      + extractStridedSlice S32x224 ![3, 2] (k0_pay3 (F := Ideal) v3) slices_S36x228_o3_2_S32x224 (ix2 r q)
      + extractStridedSlice S32x224 ![3, 3] (k0_pay3 (F := Ideal) v3) slices_S36x228_o3_3_S32x224 (ix2 r q)
      + extractStridedSlice S32x224 ![3, 4] (k0_pay3 (F := Ideal) v3) slices_S36x228_o3_4_S32x224 (ix2 r q)
      + extractStridedSlice S32x224 ![4, 0] (k0_pay3 (F := Ideal) v3) slices_S36x228_o4_0_S32x224 (ix2 r q)
      + extractStridedSlice S32x224 ![4, 1] (k0_pay3 (F := Ideal) v3) slices_S36x228_o4_1_S32x224 (ix2 r q)
      + extractStridedSlice S32x224 ![4, 2] (k0_pay3 (F := Ideal) v3) slices_S36x228_o4_2_S32x224 (ix2 r q)
      + extractStridedSlice S32x224 ![4, 3] (k0_pay3 (F := Ideal) v3) slices_S36x228_o4_3_S32x224 (ix2 r q)
      + extractStridedSlice S32x224 ![4, 4] (k0_pay3 (F := Ideal) v3) slices_S36x228_o4_4_S32x224 (ix2 r q)
      = _
  have h00 : extractStridedSlice S32x224 ![0, 0] (k0_pay3 (F := Ideal) v3) slices_S36x228_o0_0_S32x224 (ix2 r q)
      = ∑ c : Fin 3, sqAt v3 r q c 0 0 :=
    slice_apply v3 0 0 slices_S36x228_o0_0_S32x224 r q (by omega) (by omega)
  have h01 : extractStridedSlice S32x224 ![0, 1] (k0_pay3 (F := Ideal) v3) slices_S36x228_o0_1_S32x224 (ix2 r q)
      = ∑ c : Fin 3, sqAt v3 r q c 0 1 :=
    slice_apply v3 0 1 slices_S36x228_o0_1_S32x224 r q (by omega) (by omega)
  have h02 : extractStridedSlice S32x224 ![0, 2] (k0_pay3 (F := Ideal) v3) slices_S36x228_o0_2_S32x224 (ix2 r q)
      = ∑ c : Fin 3, sqAt v3 r q c 0 2 :=
    slice_apply v3 0 2 slices_S36x228_o0_2_S32x224 r q (by omega) (by omega)
  have h03 : extractStridedSlice S32x224 ![0, 3] (k0_pay3 (F := Ideal) v3) slices_S36x228_o0_3_S32x224 (ix2 r q)
      = ∑ c : Fin 3, sqAt v3 r q c 0 3 :=
    slice_apply v3 0 3 slices_S36x228_o0_3_S32x224 r q (by omega) (by omega)
  have h04 : extractStridedSlice S32x224 ![0, 4] (k0_pay3 (F := Ideal) v3) slices_S36x228_o0_4_S32x224 (ix2 r q)
      = ∑ c : Fin 3, sqAt v3 r q c 0 4 :=
    slice_apply v3 0 4 slices_S36x228_o0_4_S32x224 r q (by omega) (by omega)
  have h10 : extractStridedSlice S32x224 ![1, 0] (k0_pay3 (F := Ideal) v3) slices_S36x228_o1_0_S32x224 (ix2 r q)
      = ∑ c : Fin 3, sqAt v3 r q c 1 0 :=
    slice_apply v3 1 0 slices_S36x228_o1_0_S32x224 r q (by omega) (by omega)
  have h11 : extractStridedSlice S32x224 ![1, 1] (k0_pay3 (F := Ideal) v3) slices_S36x228_o1_1_S32x224 (ix2 r q)
      = ∑ c : Fin 3, sqAt v3 r q c 1 1 :=
    slice_apply v3 1 1 slices_S36x228_o1_1_S32x224 r q (by omega) (by omega)
  have h12 : extractStridedSlice S32x224 ![1, 2] (k0_pay3 (F := Ideal) v3) slices_S36x228_o1_2_S32x224 (ix2 r q)
      = ∑ c : Fin 3, sqAt v3 r q c 1 2 :=
    slice_apply v3 1 2 slices_S36x228_o1_2_S32x224 r q (by omega) (by omega)
  have h13 : extractStridedSlice S32x224 ![1, 3] (k0_pay3 (F := Ideal) v3) slices_S36x228_o1_3_S32x224 (ix2 r q)
      = ∑ c : Fin 3, sqAt v3 r q c 1 3 :=
    slice_apply v3 1 3 slices_S36x228_o1_3_S32x224 r q (by omega) (by omega)
  have h14 : extractStridedSlice S32x224 ![1, 4] (k0_pay3 (F := Ideal) v3) slices_S36x228_o1_4_S32x224 (ix2 r q)
      = ∑ c : Fin 3, sqAt v3 r q c 1 4 :=
    slice_apply v3 1 4 slices_S36x228_o1_4_S32x224 r q (by omega) (by omega)
  have h20 : extractStridedSlice S32x224 ![2, 0] (k0_pay3 (F := Ideal) v3) slices_S36x228_o2_0_S32x224 (ix2 r q)
      = ∑ c : Fin 3, sqAt v3 r q c 2 0 :=
    slice_apply v3 2 0 slices_S36x228_o2_0_S32x224 r q (by omega) (by omega)
  have h21 : extractStridedSlice S32x224 ![2, 1] (k0_pay3 (F := Ideal) v3) slices_S36x228_o2_1_S32x224 (ix2 r q)
      = ∑ c : Fin 3, sqAt v3 r q c 2 1 :=
    slice_apply v3 2 1 slices_S36x228_o2_1_S32x224 r q (by omega) (by omega)
  have h22 : extractStridedSlice S32x224 ![2, 2] (k0_pay3 (F := Ideal) v3) slices_S36x228_o2_2_S32x224 (ix2 r q)
      = ∑ c : Fin 3, sqAt v3 r q c 2 2 :=
    slice_apply v3 2 2 slices_S36x228_o2_2_S32x224 r q (by omega) (by omega)
  have h23 : extractStridedSlice S32x224 ![2, 3] (k0_pay3 (F := Ideal) v3) slices_S36x228_o2_3_S32x224 (ix2 r q)
      = ∑ c : Fin 3, sqAt v3 r q c 2 3 :=
    slice_apply v3 2 3 slices_S36x228_o2_3_S32x224 r q (by omega) (by omega)
  have h24 : extractStridedSlice S32x224 ![2, 4] (k0_pay3 (F := Ideal) v3) slices_S36x228_o2_4_S32x224 (ix2 r q)
      = ∑ c : Fin 3, sqAt v3 r q c 2 4 :=
    slice_apply v3 2 4 slices_S36x228_o2_4_S32x224 r q (by omega) (by omega)
  have h30 : extractStridedSlice S32x224 ![3, 0] (k0_pay3 (F := Ideal) v3) slices_S36x228_o3_0_S32x224 (ix2 r q)
      = ∑ c : Fin 3, sqAt v3 r q c 3 0 :=
    slice_apply v3 3 0 slices_S36x228_o3_0_S32x224 r q (by omega) (by omega)
  have h31 : extractStridedSlice S32x224 ![3, 1] (k0_pay3 (F := Ideal) v3) slices_S36x228_o3_1_S32x224 (ix2 r q)
      = ∑ c : Fin 3, sqAt v3 r q c 3 1 :=
    slice_apply v3 3 1 slices_S36x228_o3_1_S32x224 r q (by omega) (by omega)
  have h32 : extractStridedSlice S32x224 ![3, 2] (k0_pay3 (F := Ideal) v3) slices_S36x228_o3_2_S32x224 (ix2 r q)
      = ∑ c : Fin 3, sqAt v3 r q c 3 2 :=
    slice_apply v3 3 2 slices_S36x228_o3_2_S32x224 r q (by omega) (by omega)
  have h33 : extractStridedSlice S32x224 ![3, 3] (k0_pay3 (F := Ideal) v3) slices_S36x228_o3_3_S32x224 (ix2 r q)
      = ∑ c : Fin 3, sqAt v3 r q c 3 3 :=
    slice_apply v3 3 3 slices_S36x228_o3_3_S32x224 r q (by omega) (by omega)
  have h34 : extractStridedSlice S32x224 ![3, 4] (k0_pay3 (F := Ideal) v3) slices_S36x228_o3_4_S32x224 (ix2 r q)
      = ∑ c : Fin 3, sqAt v3 r q c 3 4 :=
    slice_apply v3 3 4 slices_S36x228_o3_4_S32x224 r q (by omega) (by omega)
  have h40 : extractStridedSlice S32x224 ![4, 0] (k0_pay3 (F := Ideal) v3) slices_S36x228_o4_0_S32x224 (ix2 r q)
      = ∑ c : Fin 3, sqAt v3 r q c 4 0 :=
    slice_apply v3 4 0 slices_S36x228_o4_0_S32x224 r q (by omega) (by omega)
  have h41 : extractStridedSlice S32x224 ![4, 1] (k0_pay3 (F := Ideal) v3) slices_S36x228_o4_1_S32x224 (ix2 r q)
      = ∑ c : Fin 3, sqAt v3 r q c 4 1 :=
    slice_apply v3 4 1 slices_S36x228_o4_1_S32x224 r q (by omega) (by omega)
  have h42 : extractStridedSlice S32x224 ![4, 2] (k0_pay3 (F := Ideal) v3) slices_S36x228_o4_2_S32x224 (ix2 r q)
      = ∑ c : Fin 3, sqAt v3 r q c 4 2 :=
    slice_apply v3 4 2 slices_S36x228_o4_2_S32x224 r q (by omega) (by omega)
  have h43 : extractStridedSlice S32x224 ![4, 3] (k0_pay3 (F := Ideal) v3) slices_S36x228_o4_3_S32x224 (ix2 r q)
      = ∑ c : Fin 3, sqAt v3 r q c 4 3 :=
    slice_apply v3 4 3 slices_S36x228_o4_3_S32x224 r q (by omega) (by omega)
  have h44 : extractStridedSlice S32x224 ![4, 4] (k0_pay3 (F := Ideal) v3) slices_S36x228_o4_4_S32x224 (ix2 r q)
      = ∑ c : Fin 3, sqAt v3 r q c 4 4 :=
    slice_apply v3 4 4 slices_S36x228_o4_4_S32x224 r q (by omega) (by omega)
  rw [h00, h01, h02, h03, h04, h10, h11, h12, h13, h14, h20, h21, h22, h23, h24, h30, h31, h32, h33, h34, h40, h41, h42, h43, h44]
  exact Cert.Spec.chain25_eq_sum (sqAt v3 r q)

end Cert.KernelIdeal.Tile

end
-- ==== Proof.TileDistance.lean ====
/-
  The last stage of the kernel`s tile computation, read at one index.

  For prototype `o` and tile position `l` the stored value is
  `sqrt (max ((|w_o|² + p_l) − 2 · ⟨w_o, col_l⟩) 0)`: the prototype`s squared norm is a sum of squares along its row,
  the field`s squared norm `p_l` comes in as a vector over the tile, and the inner product is one entry of a
  64 × 75 by 75 × 7168 matrix product accumulated from zero. Reading each layer at the index (row broadcast, column
  broadcast, unit-axis reshapes, the row sum, the product`s contraction) gives the distance formula of the
  specification with the two squared norms and the inner product as plain finite sums over the 75 window entries.
-/
import proofs.«128501_j40114994544664_1_alg».proof.Proof.Gen.KernelIdeal.Skeleton
import proofs.«128501_j40114994544664_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Tile

open Idealize.ShloMosaic Idealize.ShloMosaic.ValueIdx Cert.KernelIdeal Cert.KernelIdeal.Gen

/-! ## Two small layout readings -/

/-- A column `[a, 1]` broadcast to `[a, b]` reads, at `(p, c)`, the column`s entry at row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector `[a]` reshaped to a column `[a, 1]` reads, at `(i, u)`, the vector at `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-! ## The matrix product`s operand indices, axis by axis -/

theorem lhs_axis0 (i : S64x7168.Idx) (q : dot_S64x75_S75x7168_S64x7168_1_0_0_1_n_n.contr.Idx) :
    (dot_S64x75_S75x7168_S64x7168_1_0_0_1_n_n.lhsIdx i q 0).val = (i 0).val := by
  unfold DotDims.lhsIdx
  rw [dif_neg (show ¬(0 : Fin S64x75.rank) ∈ dot_S64x75_S75x7168_S64x7168_1_0_0_1_n_n.lhsBatch by decide), dif_pos (show (0 : Fin S64x75.rank) ∈ dot_S64x75_S75x7168_S64x7168_1_0_0_1_n_n.lhsNonContracting by decide)]
  rfl

theorem lhs_axis1 (i : S64x7168.Idx) (q : dot_S64x75_S75x7168_S64x7168_1_0_0_1_n_n.contr.Idx) :
    (dot_S64x75_S75x7168_S64x7168_1_0_0_1_n_n.lhsIdx i q 1).val = (q ⟨0, by decide⟩).val :=
  dot_S64x75_S75x7168_S64x7168_1_0_0_1_n_n.lhsIdx_val_of_single rfl i q

theorem rhs_axis0 (i : S64x7168.Idx) (q : dot_S64x75_S75x7168_S64x7168_1_0_0_1_n_n.contr.Idx) :
    (dot_S64x75_S75x7168_S64x7168_1_0_0_1_n_n.rhsIdx i q 0).val = (q ⟨0, by decide⟩).val :=
  dot_S64x75_S75x7168_S64x7168_1_0_0_1_n_n.rhsIdx_val_of_single rfl i q

theorem rhs_axis1 (i : S64x7168.Idx) (q : dot_S64x75_S75x7168_S64x7168_1_0_0_1_n_n.contr.Idx) :
    (dot_S64x75_S75x7168_S64x7168_1_0_0_1_n_n.rhsIdx i q 1).val = (i 1).val := by
  unfold DotDims.rhsIdx
  rw [dif_neg (show ¬(1 : Fin S75x7168.rank) ∈ dot_S64x75_S75x7168_S64x7168_1_0_0_1_n_n.rhsBatch by decide), dif_pos (show (1 : Fin S75x7168.rank) ∈ dot_S64x75_S75x7168_S64x7168_1_0_0_1_n_n.rhsNonContracting by decide)]
  rfl

/-- The product accumulated from zero, at `(o, l)`: the sum over the 75 shared entries of row `o` of the left factor
    times column `l` of the right factor. -/
theorem product_apply (a : FVec Ideal S64x75 .bf16) (b : FVec Ideal S75x7168 .bf16) (o : Fin 64) (l : Fin 7168) :
    matmul dot_S64x75_S75x7168_S64x7168_1_0_0_1_n_n none a b (constant (F := Ideal) S64x7168 .f32 0x00000000#32) (ix2 o l)
      = ∑ k : Fin 75, a (ix2 o k) * b (ix2 k l) := by
  refine (Ideal.matmul_constant_zero_apply dot_S64x75_S75x7168_S64x7168_1_0_0_1_n_n none a b (ix2 o l)).trans ?_
  rw [← Equiv.sum_comp (ValueIdx.contrEquiv1 dot_S64x75_S75x7168_S64x7168_1_0_0_1_n_n 75 rfl rfl).symm]
  refine Finset.sum_congr rfl fun k _ => ?_
  have hk := ValueIdx.contrEquiv1_symm_val dot_S64x75_S75x7168_S64x7168_1_0_0_1_n_n 75 rfl rfl k
  have el : dot_S64x75_S75x7168_S64x7168_1_0_0_1_n_n.lhsIdx (ix2 o l) ((ValueIdx.contrEquiv1 dot_S64x75_S75x7168_S64x7168_1_0_0_1_n_n 75 rfl rfl).symm k) = ix2 o k := funext fun ax => Fin.ext (by
    match ax with
    | ⟨0, _⟩ => exact lhs_axis0 _ _
    | ⟨1, _⟩ => exact (lhs_axis1 _ _).trans hk)
  have er : dot_S64x75_S75x7168_S64x7168_1_0_0_1_n_n.rhsIdx (ix2 o l) ((ValueIdx.contrEquiv1 dot_S64x75_S75x7168_S64x7168_1_0_0_1_n_n 75 rfl rfl).symm k) = ix2 k l := funext fun ax => Fin.ext (by
    match ax with
    | ⟨0, _⟩ => exact (rhs_axis0 _ _).trans hk
    | ⟨1, _⟩ => exact rhs_axis1 _ _)
  rw [el, er]

/-- The row sum of squares at `o`. -/
theorem rowSq_apply (x1 : Vec Ideal S64x75 .f32) (o : Fin 64) :
    multiReduction (F := Ideal) .add [1] S64 (mulf x1 x1) 0x00000000#32 reduces_S64x75_S64 (.inl rfl) rfl (ix1 o)
      = ∑ d : Fin 75, x1 (ix2 o d) * x1 (ix2 o d) := by
  refine (Ideal.multiReduction_add_single (mulf x1 x1) _ reduces_S64x75_S64 (.inl rfl) rfl (ix1 o)).trans ?_
  refine Finset.sum_congr rfl fun d _ => ?_
  have e : reduces_S64x75_S64.lift (ix1 o) d = ix2 o d := funext fun ax => Fin.ext (by
    match ax with
    | ⟨0, _⟩ => rfl
    | ⟨1, _⟩ => rfl)
  rw [e]
  rfl

theorem pay1_apply (v56 : FVec Ideal Cert.KernelIdeal.S7168 .f32) (v109 : FVec Ideal Cert.KernelIdeal.S75x7168 .f32) (x1 : Vec Ideal Cert.KernelIdeal.S64x75 .f32) (o : Fin 64) (l : Fin 7168) :
    Cert.KernelIdeal.Gen.k0_pay1 (F := Ideal) v56 v109 x1 (ix3 (0 : Fin 1) o l)
      = Cert.Spec.distOf (v56 (ix1 l)) (∑ d : Fin 75, x1 (ix2 o d) * x1 (ix2 o d)) (∑ d : Fin 75, v109 (ix2 d l) * x1 (ix2 o d)) := by
  unfold k0_pay1
  dsimp only
  refine (shapeCast_ab_1ab_apply _ _ 0 o l).trans ?_
  unfold Cert.Spec.distOf
  -- the prototype's squared norm: column broadcast, reshape to a column, row sum
  have hA : broadcastTo S64x7168 (shapeCast S64x1 (multiReduction (F := Ideal) .add [1] S64 (mulf x1 x1) 0x00000000#32 reduces_S64x75_S64 (.inl rfl) rfl) shapeCasts_S64_S64x1) broadcasts_S64x1_S64x7168 (ix2 o l)
      = ∑ d : Fin 75, x1 (ix2 o d) * x1 (ix2 o d) :=
    (broadcastTo_a1_ab_apply _ _ o l).trans ((shapeCast_a_a1_apply _ _ o 0).trans (rowSq_apply x1 o))
  -- the field's squared norm: row broadcast, reshape to a row
  have hB : broadcastTo S64x7168 (shapeCast S1x7168 v56 shapeCasts_S7168_S1x7168) broadcasts_S1x7168_S64x7168 (ix2 o l) = v56 (ix1 l) :=
    (broadcastTo_1b_ab_apply _ _ o l).trans (shapeCast_a_1a_apply _ _ 0 l)
  -- the inner product: the product's entry, its factors swapped under the sum
  have hM : matmul dot_S64x75_S75x7168_S64x7168_1_0_0_1_n_n none (truncf .bf16 x1 bitsLt_bf16_f32) (truncf .bf16 v109 bitsLt_bf16_f32) (constant (F := Ideal) S64x7168 .f32 0x00000000#32) (ix2 o l)
      = ∑ d : Fin 75, v109 (ix2 d l) * x1 (ix2 o d) :=
    (product_apply _ _ o l).trans (Finset.sum_congr rfl fun d _ => mul_comm _ _)
  show Ideal.sqrt (max ((_ + _) - _ * _) _) = _
  rw [hA, hB, hM, add_comm (∑ d : Fin 75, x1 (ix2 o d) * x1 (ix2 o d))]
  rfl

end Cert.KernelIdeal.Tile

end
-- ==== Proof.KernelValue.lean ====
/-
  The distance kernel's result array.

  Point (image `b`, tile `s`) of the grid leaves in its output block the tile's distances computed from the slab of 36
  padded rows it read; read at (prototype `o`, position `224 r + q` of the tile) that value is the specification's distance
  of the receptive field at output position `7168 s + 224 r + q` of image `b`: entry `d` of the window at (`r`, `q`) of the
  slab is the padded image at row `32 s + r + kh`, column `q + kw`, which is row `l / 224 + kh`, column `l % 224 + kw` for
  `l = 7168 s + 224 r + q`. The 224 output blocks tile the array [32, 64, 50176], so after the run it holds the distance
  map of the padded images and the prototypes as the region found them; the line after the region reshapes it.
-/
import proofs.«128501_j40114994544664_1_alg».proof.Proof.BlockReads
import proofs.«128501_j40114994544664_1_alg».proof.Proof.HaloWindows
import proofs.«128501_j40114994544664_1_alg».proof.Proof.HaloSquares
import proofs.«128501_j40114994544664_1_alg».proof.Proof.TileDistance
import Idealize.ShloMosaic.Lib.ValueLayout
import Idealize.ShloMosaic.Lib.StableHlo.Run

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Dist

open Cert.KernelIdeal Cert.KernelIdeal.Gen Cert.KernelIdeal.Blocks Cert.KernelIdeal.Tile Cert.Spec

/-- Dropping the slab's leading unit axis. -/
theorem pay2_apply (v3 : Vec Ideal S1x3x36x228 .f32) (ch : Fin 3) (r' : Fin 36) (q' : Fin 228) :
    k0_pay2 (F := Ideal) v3 (ix3 ch r' q') = v3 (ix4 (0 : Fin 1) ch r' q') := by
  unfold k0_pay2
  exact shapeCast_1abc_abc_apply v3 _ ch r' q'

/-- The stored tile at (prototype `o`, tile position (`r`, `q`)): the distance from the window's squared norm, the
    prototype's squared norm and their inner product, the window's entries read off the slab. -/
theorem tile_apply (i : grid0.Coords) (x0 : Vec Ideal S1x3x228x228 .f32) (x1 : Vec Ideal S64x75 .f32)
    (o : Fin 64) (r : Fin 32) (q : Fin 224) :
    k0_pay1 (F := Ideal) (k0_pay6 (k0_pay3 (slab i x0)) (k0_pay4 (slab i x0)) (k0_pay5 (slab i x0)))
        (k0_pay7 (k0_pay2 (slab i x0))) x1 (ix3 (0 : Fin 1) o (tilePos r q))
      = distOf (∑ d : Fin 75, k0_pay2 (F := Ideal) (slab i x0) (haloIdx d r q) * k0_pay2 (F := Ideal) (slab i x0) (haloIdx d r q))
          (∑ d : Fin 75, x1 (ix2 o d) * x1 (ix2 o d))
          (∑ d : Fin 75, k0_pay2 (F := Ideal) (slab i x0) (haloIdx d r q) * x1 (ix2 o d)) := by
  rw [pay1_apply, pay6_apply]
  simp only [pay7_apply]

variable (m : (ℓ : Loc nD τ sig) → Buf (Elt Ideal) ℓ) (ρ : Dev nD → PrngReg)

/-- Entry `d` of the window at (`r`, `q`) of the slab of point `t` is entry `d` of the receptive field of the point's image
    at the position the tile's offset gives. -/
theorem halo_eq_field (c : Dev nD) (t : Fin cfg0.N) (d : Fin 75) (r : Fin 32) (q : Fin 224) (b : Fin 32) (l : Fin 50176)
    (hb : b.val = win0_2.index t (0 : Fin 3)) (hl : l.val = win0_2.index t (2 : Fin 3) * 7168 + (r.val * 224 + q.val)) :
    k0_pay2 (F := Ideal) (slab (grid0.coords t) (imgBlk m c t)) (haloIdx d r q) = field (padded m c) b l d := by
  obtain ⟨-, -, -, -, -, -, -, e7, -, e9⟩ := idx_facts t
  have hd := d.isLt
  have hr := r.isLt
  have hq := q.isLt
  unfold haloIdx field
  rw [pay2_apply]
  have hrow : k0_off1 (grid0.coords t) 2 + (r.val + d.val % 25 / 5) < 228 := by rw [e7]; omega
  rw [slab_apply (grid0.coords t) (imgBlk m c t) 0 _ _ _
    (ix4 (0 : Fin 1) ⟨d.val / 25, by omega⟩ ⟨k0_off1 (grid0.coords t) 2 + (r.val + d.val % 25 / 5), hrow⟩
      ⟨q.val + d.val % 25 % 5, by omega⟩) rfl rfl rfl rfl]
  refine imgBlk_apply m c t _ (fieldIdx b l d) hb rfl ?_ ?_
  · show l.val / 224 + d.val % 25 / 5 = k0_off1 (grid0.coords t) 2 + (r.val + d.val % 25 / 5)
    rw [e7, hl]; omega
  · show l.val % 224 + d.val % 25 % 5 = q.val + d.val % 25 % 5
    rw [hl]; omega

/-- The distance map of the padded images and the prototypes as the region finds them. -/
abbrev distances (c : Dev nD) : Buf (Elt Ideal) ((c : Thread nD τ).loc main_v1) := Spec.dist (padded m c) (protos m c)

/-- What point `t` writes back is block `t` of the distance map. -/
theorem flushed_eq (c : Dev nD) (t : Fin cfg0.N) :
    (dats m 0 c).flushed 2 t = ((cfg0.win 2).blk t).view.read (Elt Ideal) (distances m c) := by
  obtain ⟨-, -, -, -, -, -, e6, -, e8, e9⟩ := idx_facts t
  show (cfg0.win 2).cut (grid0.coords t) ((dats m 0 c).after 2 t) = _
  rw [after0_2]
  unfold outsAt0
  rw [Blocks.piece]
  funext y
  show k0_pay1 (F := Ideal) (k0_pay6 (k0_pay3 (slab (grid0.coords t) (imgBlk m c t))) (k0_pay4 (slab (grid0.coords t) (imgBlk m c t))) (k0_pay5 (slab (grid0.coords t) (imgBlk m c t))))
      (k0_pay7 (k0_pay2 (slab (grid0.coords t) (imgBlk m c t)))) (protoBlk m c t) y
    = Spec.dist (padded m c) (protos m c) (((cfg0.win 2).blk t).view.emb y)
  rw [protoBlk_eq]
  obtain ⟨u, o, l, rfl⟩ : ∃ (u : Fin 1) (o : Fin 64) (l : Fin 7168), y = ix3 u o l := ⟨y 0, y 1, y 2, eq_ix3 y⟩
  obtain rfl : u = 0 := Subsingleton.elim _ _
  have hl := l.isLt
  obtain ⟨r, q, rfl⟩ : ∃ (r : Fin 32) (q : Fin 224), l = tilePos r q :=
    ⟨⟨l.val / 224, by omega⟩, ⟨l.val % 224, by omega⟩, Fin.ext (by show l.val = l.val / 224 * 224 + l.val % 224; omega)⟩
  rw [tile_apply]
  have hr := r.isLt
  have hq := q.isLt
  -- the block's index in the array, by coordinates
  have hb : (((cfg0.win 2).blk t).view.emb (ix3 (0 : Fin 1) o (tilePos r q)) 0).val = win0_2.index t (0 : Fin 3) := by
    show win0_2.index t (0 : Fin 3) * 1 + 1 * 0 = _; omega
  have ho : ((cfg0.win 2).blk t).view.emb (ix3 (0 : Fin 1) o (tilePos r q)) 1 = o := Fin.ext (by
    show win0_2.index t (1 : Fin 3) * 64 + 1 * o.val = o.val; rw [e6]; omega)
  have hL : (((cfg0.win 2).blk t).view.emb (ix3 (0 : Fin 1) o (tilePos r q)) 2).val
      = win0_2.index t (2 : Fin 3) * 7168 + (r.val * 224 + q.val) := by
    show win0_2.index t (2 : Fin 3) * 7168 + 1 * (r.val * 224 + q.val) = _; omega
  unfold Spec.dist Spec.fieldSq Spec.protoSq Spec.cross
  rw [ho]
  simp only [halo_eq_field m c t _ r q _ _ hb hL]
/-- An index of the distance array lies in point `t`'s block iff each coordinate is in the block's range on its axis. -/
theorem mem_blk (t : Fin cfg0.N) (i : S32x64x50176.Idx) :
    i ∈ ((cfg0.win 2).blk t).view.set ↔ ∀ a : Fin 3, win0_2.index t a * S1x64x7168.size a ≤ (i a).val
      ∧ (i a).val < win0_2.index t a * S1x64x7168.size a + S1x64x7168.size a := by
  show i ∈ ((View.whole main_v1).slice (win0_2.rect t)).set ↔ _
  rw [View.set_slice_whole, Rect.mem_set_unit]
  exact Iff.rfl

/-- The blocks tile the array (index (`b`, `o`, `l`) is in the block of image `b`, tile `l / 7168`), so after the run the
    array holds the distance map. -/
theorem final (c : Dev nD) : (dats m 0 c).arrAt 2 cfg0.N = distances m c :=
  (dats m 0 c).arrAt_eq_of_cover 2 (distances m c) (fun t _ => flushed_eq m c t) fun i => by
    have h0 : (i 0).val < 32 := (i 0).isLt
    have h1 : (i 1).val < 64 := (i 1).isLt
    have h2 : (i 2).val < 50176 := (i 2).isLt
    obtain ⟨t, ht⟩ := idx_onto (i 0) ⟨(i 2).val / 7168, by omega⟩
    have q0 : win0_2.index t (0 : Fin 3) = (i 0).val := congrFun ht 0
    have q1 : win0_2.index t (1 : Fin 3) = 0 := congrFun ht 1
    have q2 : win0_2.index t (2 : Fin 3) = (i 2).val / 7168 := congrFun ht 2
    refine ⟨t, flush0_2 t, ?_⟩
    rw [mem_blk]
    intro a
    match a with
    | ⟨0, _⟩ => show win0_2.index t (0 : Fin 3) * 1 ≤ (i 0).val ∧ (i 0).val < win0_2.index t (0 : Fin 3) * 1 + 1; omega
    | ⟨1, _⟩ => show win0_2.index t (1 : Fin 3) * 64 ≤ (i 1).val ∧ (i 1).val < win0_2.index t (1 : Fin 3) * 64 + 64; omega
    | ⟨2, _⟩ => show win0_2.index t (2 : Fin 3) * 7168 ≤ (i 2).val ∧ (i 2).val < win0_2.index t (2 : Fin 3) * 7168 + 7168; omega

/-- The padded images as the region finds them: the zero padding, by 2 on each side of the two image axes, of the
    first argument. -/
theorem padded_eq (c : Dev nD) :
    padded m c = pad S32x3x228x228 ![0, 0, 2, 2] ![0, 0, 2, 2] ![0, 0, 0, 0]
      (m ((c : Thread nD τ).loc main_arg0) : Vec Ideal S32x3x224x224 .f32)
      (sitofp (F := Ideal) .f32 (constantI S_ 32 0#32)) pads_S32x3x224x224_S32x3x228x228_000_000_220_220 h_S_ := by
  show V m c main_v0 = _
  dsimp only [Gen.V, Gen.V0]
  simp only [Gen.hostOps0, Gen.hostOps0_1, List.flatten_cons, List.flatten_nil, List.append_nil, List.cons_append,
    List.nil_append]
  after_results
  all_goals (try simp only [StableHlo.TRef.ofBuf, StableHlo.TRef.toBuf, cast_eq])
  all_goals (try rfl)

/-- The prototypes as the region finds them: the second argument. -/
theorem protos_eq (c : Dev nD) : protos m c = m ((c : Thread nD τ).loc main_arg1) := V_main_arg1 m c

/-- The line after the region reshapes the distance array [32, 64, 50176] to [32, 64, 224, 224]. -/
theorem tail_eq (c : Dev nD) :
    Pipeline.afterTail₀ cfgs (dats m) 0 (V0 m) [hostOps1] c main_v2
      = shapeCast S32x64x224x224 (distances m c) shapeCasts_S32x64x50176_S32x64x224x224 := by
  unfold Pipeline.afterTail₀
  show StableHlo.after hostOps1 _ (Proc.devRef .tc main_v2) = _
  after_results
  rw [(Pipeline.withArrays_arr spec0 launch0.win.arr_inj c _ _ 2).trans (final m c)]
  funext i
  rfl

/-- The run, read: the result at the reshaped distance map of the padded first argument and the second argument, the
    arguments unchanged. -/
theorem run : θ_run defs (onTc (τ := τ) (main (F := Ideal))) ⟨m, fun _ => 0, ρ⟩ fun r => ∀ c : Dev nD,
      r.2.mem ((c : Thread nD τ).loc main_v2)
        = shapeCast S32x64x224x224 (distances m c) shapeCasts_S32x64x50176_S32x64x224x224
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c =>
    ⟨((h c).2 main_v2 (Pipeline.mem_restRefs_of main_v2 (by decide) (by decide))).trans (tail_eq m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c)))⟩)
    (run_main m ρ)

end Cert.KernelIdeal.Dist

end
-- ==== Proof.RefDistance.lean ====
/-
  The reference program's distances, before its last reshape, are the specification's distance map of the padded images.

  The reference gathers the receptive fields by hand: the 25 shifted 224 × 224 windows of the padded image (shift (kh, kw),
  numbered 5 kh + kw) are stacked along a new axis, in two stacks of 16 and 9 laid end to end; the stack is flattened to
  (image, 25 c + 5 kh + kw, 224 row + column) and transposed. So its entry at (b, l, d) is the padded image at channel
  d / 25, row l / 224 + (d % 25) / 5, column l % 224 + (d % 25) % 5: entry d of the receptive field at position l. The rest
  is the norm expansion |f|² + |w|² − 2 ⟨f, w⟩, clamped at zero, under a square root, read entry by entry.
-/
import proofs.«128501_j40114994544664_1_alg».proof.Proof.RefRead
import proofs.«128501_j40114994544664_1_alg».proof.Proof.Spec
import Idealize.ShloMosaic.Lib.Pipeline.Value
import Idealize.ShloMosaic.Lib.ValueIdx
import Idealize.ShloMosaic.PureOps.Ideal.Laws

noncomputable section

open scoped BigOperators

namespace Cert.RefBridge

open Cert.ReferenceIdeal Cert.ReferenceIdeal.Gen Cert.ReferenceIdeal.ReadCopy
open Idealize.ShloMosaic Idealize.ShloMosaic.ValueIdx Idealize.ShloMosaic.StableHlo

/-- A stack of pieces of extent one along axis 2, read at (b, c, k, r, q): piece number `k` at (b, c, 0, r, q). -/
theorem stack_read {α : Type} {n : Nat} (xs : List ((s : Shape) × (s.Idx → α)))
    (h : Shape.Concatenates (xs.map (·.1)) (⟨5, ![32, 3, n, 224, 224]⟩ : Shape) 2)
    (b : Fin 32) (c : Fin 3) (k : Fin n) (r q : Fin 224)
    (x₁ : S32x3x1x224x224.Idx → α) (hxk : xs[k.val]? = some ⟨S32x3x1x224x224, x₁⟩)
    (hpre : (((xs.take k.val).map (·.1)).map fun s : Shape =>
      if h : s.rank = 5 then s.size ((2 : Fin 5).cast h.symm) else 0).sum = k.val) :
    concatenate (⟨5, ![32, 3, n, 224, 224]⟩ : Shape) 2 xs h (ix5 b c k r q) = x₁ (ix5 b c 0 r q) := by
  obtain ⟨hk, hxk'⟩ := List.getElem?_eq_some_iff.1 hxk
  refine concatenate_apply_piece 2 xs h (ix5 b c k r q) k.val hk S32x3x1x224x224 x₁ hxk' rfl k.val hpre (ix5 b c 0 r q) ?_ ?_
  · intro a ha
    match a with
    | ⟨0, _⟩ => rfl
    | ⟨1, _⟩ => rfl
    | ⟨2, _⟩ => exact absurd rfl ha
    | ⟨3, _⟩ => rfl
    | ⟨4, _⟩ => rfl
  · show k.val + 0 = k.val
    omega

section Entries

variable (x0 : (⟨S32x3x224x224, .f32⟩ : BufTy).Contents (Elt Ideal))

set_option maxHeartbeats 2000000 in
/-- The first stack: its piece `k` (`k < 16`) is the window shifted by (k / 5, k % 5). -/
theorem stack16_read (b : Fin 32) (c : Fin 3) (k : Fin 16) (r q : Fin 224) :
    val_main_v51 (F := Ideal) x0 (ix5 b c k r q) =
      val_main_v0 (F := Ideal) x0 (ix4 b c
        ⟨r.val + k.val / 5, by have := r.isLt; have := k.isLt; omega⟩
        ⟨q.val + k.val % 5, by have := q.isLt; omega⟩) := by
  unfold val_main_v51
  fin_cases k <;> refine (stack_read _ _ b c _ r q _ rfl rfl).trans ?_ <;>
    simp only [val_main_v26_apply, val_main_v27_apply, val_main_v28_apply, val_main_v29_apply, val_main_v30_apply, val_main_v31_apply, val_main_v32_apply, val_main_v33_apply, val_main_v34_apply, val_main_v35_apply, val_main_v36_apply, val_main_v37_apply, val_main_v38_apply, val_main_v39_apply, val_main_v40_apply, val_main_v41_apply, val_main_v1_apply, val_main_v2_apply, val_main_v3_apply, val_main_v4_apply, val_main_v5_apply, val_main_v6_apply, val_main_v7_apply, val_main_v8_apply, val_main_v9_apply, val_main_v10_apply, val_main_v11_apply, val_main_v12_apply, val_main_v13_apply, val_main_v14_apply, val_main_v15_apply, val_main_v16_apply] <;>
    exact congrArg _ (funext fun a => Fin.ext (by
      match a with
      | ⟨0, _⟩ => rfl
      | ⟨1, _⟩ => rfl
      | ⟨2, _⟩ => first | rfl | exact Nat.add_comm _ _
      | ⟨3, _⟩ => first | rfl | exact Nat.add_comm _ _))

set_option maxHeartbeats 2000000 in
/-- The second stack: its piece `k` (`k < 9`) is the window shifted by ((16 + k) / 5, (16 + k) % 5). -/
theorem stack9_read (b : Fin 32) (c : Fin 3) (k : Fin 9) (r q : Fin 224) :
    val_main_v52 (F := Ideal) x0 (ix5 b c k r q) =
      val_main_v0 (F := Ideal) x0 (ix4 b c
        ⟨r.val + (16 + k.val) / 5, by have := r.isLt; have := k.isLt; omega⟩
        ⟨q.val + (16 + k.val) % 5, by have := q.isLt; omega⟩) := by
  unfold val_main_v52
  fin_cases k <;> refine (stack_read _ _ b c _ r q _ rfl rfl).trans ?_ <;>
    simp only [val_main_v42_apply, val_main_v43_apply, val_main_v44_apply, val_main_v45_apply, val_main_v46_apply, val_main_v47_apply, val_main_v48_apply, val_main_v49_apply, val_main_v50_apply, val_main_v17_apply, val_main_v18_apply, val_main_v19_apply, val_main_v20_apply, val_main_v21_apply, val_main_v22_apply, val_main_v23_apply, val_main_v24_apply, val_main_v25_apply] <;>
    exact congrArg _ (funext fun a => Fin.ext (by
      match a with
      | ⟨0, _⟩ => rfl
      | ⟨1, _⟩ => rfl
      | ⟨2, _⟩ => first | rfl | exact Nat.add_comm _ _
      | ⟨3, _⟩ => first | rfl | exact Nat.add_comm _ _))

/-- The two stacks end to end: piece `k` (`k < 25`) is the window shifted by (k / 5, k % 5). -/
theorem stack25_read (b : Fin 32) (c : Fin 3) (k : Fin 25) (r q : Fin 224) :
    val_main_v53 (F := Ideal) x0 (ix5 b c k r q) =
      val_main_v0 (F := Ideal) x0 (ix4 b c
        ⟨r.val + k.val / 5, by have := r.isLt; have := k.isLt; omega⟩
        ⟨q.val + k.val % 5, by have := q.isLt; omega⟩) := by
  unfold val_main_v53
  by_cases hk : k.val < 16
  · refine (concatenate_pair_apply_left (t := S32x3x25x224x224) (s₁ := S32x3x16x224x224) (s₂ := S32x3x9x224x224)
      2 _ _ _ (ix5 b c k r q) rfl (ix5 b c (⟨k.val, hk⟩ : Fin 16) r q) ?_).trans ?_
    · intro a
      match a with
      | ⟨0, _⟩ => rfl
      | ⟨1, _⟩ => rfl
      | ⟨2, _⟩ => rfl
      | ⟨3, _⟩ => rfl
      | ⟨4, _⟩ => rfl
    · exact stack16_read x0 b c ⟨k.val, hk⟩ r q
  · have hk9 : k.val - 16 < 9 := by have := k.isLt; omega
    refine (concatenate_pair_apply_right (t := S32x3x25x224x224) (s₁ := S32x3x16x224x224) (s₂ := S32x3x9x224x224)
      2 _ _ _ (ix5 b c k r q) rfl rfl (ix5 b c (⟨k.val - 16, hk9⟩ : Fin 9) r q) ?_ ?_).trans ?_
    · intro a ha
      match a with
      | ⟨0, _⟩ => rfl
      | ⟨1, _⟩ => rfl
      | ⟨2, _⟩ => exact absurd rfl ha
      | ⟨3, _⟩ => rfl
      | ⟨4, _⟩ => rfl
    · show k.val - 16 + 16 = k.val
      omega
    · refine (stack9_read x0 b c ⟨k.val - 16, hk9⟩ r q).trans ?_
      exact congrArg _ (funext fun a => Fin.ext (by
        match a with
        | ⟨0, _⟩ => rfl
        | ⟨1, _⟩ => rfl
        | ⟨2, _⟩ => show r.val + (16 + (k.val - 16)) / 5 = r.val + k.val / 5; omega
        | ⟨3, _⟩ => show q.val + (16 + (k.val - 16)) % 5 = q.val + k.val % 5; omega))

/-- The gathered fields: entry (b, l, d) is entry `d` of the receptive field of image `b` at position `l`. -/
theorem window_entry (b : Fin 32) (l : Fin 50176) (d : Fin 75) :
    val_main_v55 (F := Ideal) x0 (ix3 b l d) = Cert.Spec.field (val_main_v0 (F := Ideal) x0) b l d := by
  have hb := b.isLt
  have hl := l.isLt
  have hd := d.isLt
  rw [val_main_v55_apply, val_main_v54_apply]
  have e : idx_main_v54 (idx_main_v55 (ix3 b l d)) =
      ix5 b (⟨d.val / 25, by omega⟩ : Fin 3) (⟨d.val % 25, by omega⟩ : Fin 25)
        (⟨l.val / 224, by omega⟩ : Fin 224) (⟨l.val % 224, by omega⟩ : Fin 224) :=
    funext fun a => Fin.ext (by
      match a with
      | ⟨0, _⟩ => show ((b.val * 75 + d.val) * 50176 + l.val) / 3763200 = b.val; omega
      | ⟨1, _⟩ => show ((b.val * 75 + d.val) * 50176 + l.val) / 1254400 % 3 = d.val / 25; omega
      | ⟨2, _⟩ => show ((b.val * 75 + d.val) * 50176 + l.val) / 50176 % 25 = d.val % 25; omega
      | ⟨3, _⟩ => show ((b.val * 75 + d.val) * 50176 + l.val) / 224 % 224 = l.val / 224; omega
      | ⟨4, _⟩ => show ((b.val * 75 + d.val) * 50176 + l.val) % 224 = l.val % 224; omega)
  rw [e, stack25_read]
  first | done | rfl

/-- The squared norm of the gathered field. -/
theorem field_sq (b : Fin 32) (l : Fin 50176) :
    val_main_v57 (F := Ideal) x0 (ix2 b l) = Cert.Spec.fieldSq (val_main_v0 (F := Ideal) x0) b l := by
  rw [val_main_v57_apply, val_main_cst_apply, Ideal.ofBits_def, Ideal.ofBits_zero_f32]
  first | rw [zero_add] | simp only [zero_add]
  unfold Cert.Spec.fieldSq
  refine Finset.sum_congr rfl fun d _ => ?_
  have e : idx_main_v57 (ix2 b l) d = ix3 b l d :=
    funext fun a => Fin.ext (by match a with | ⟨0, _⟩ => rfl | ⟨1, _⟩ => rfl | ⟨2, _⟩ => rfl)
  rw [val_main_v56_apply, e, window_entry]
  first | done | rfl

/-- The squared norm of a prototype. -/
theorem proto_sq (x1 : (⟨S64x75, .f32⟩ : BufTy).Contents (Elt Ideal)) (o : Fin 64) :
    val_main_v59 (F := Ideal) x1 (ix1 o) = Cert.Spec.protoSq x1 o := by
  rw [val_main_v59_apply, val_main_cst_0_apply, Ideal.ofBits_def, Ideal.ofBits_zero_f32]
  first | rw [zero_add] | simp only [zero_add]
  unfold Cert.Spec.protoSq
  refine Finset.sum_congr rfl fun d _ => ?_
  have e : idx_main_v59 (ix1 o) d = ix2 o d :=
    funext fun a => Fin.ext (by match a with | ⟨0, _⟩ => rfl | ⟨1, _⟩ => rfl)
  rw [val_main_v58_apply, e]
  first | done | rfl

/-- The inner products of the gathered fields with the prototypes. -/
theorem cross_entry (x1 : (⟨S64x75, .f32⟩ : BufTy).Contents (Elt Ideal)) (b : Fin 32) (l : Fin 50176) (o : Fin 64) :
    val_main_v60 (F := Ideal) x0 x1 (ix3 b l o) = Cert.Spec.cross (val_main_v0 (F := Ideal) x0) x1 b o l := by
  rw [val_main_v60_apply]
  unfold Cert.Spec.cross
  refine Finset.sum_congr rfl fun d _ => ?_
  have el : lidx_main_v60 (ix3 b l o) d = ix3 b l d :=
    funext fun a => Fin.ext (by match a with | ⟨0, _⟩ => rfl | ⟨1, _⟩ => rfl | ⟨2, _⟩ => rfl)
  have er : ridx_main_v60 (ix3 b l o) d = ix2 o d :=
    funext fun a => Fin.ext (by match a with | ⟨0, _⟩ => rfl | ⟨1, _⟩ => rfl)
  rw [el, er, window_entry]
  first | done | rfl

end Entries

/-- The reference's distances before its last reshape are the specification's distance map of the padded images. -/
theorem ref_dist (x0 : (⟨Cert.ReferenceIdeal.S32x3x224x224, .f32⟩ : BufTy).Contents (Elt Ideal)) (x1 : (⟨Cert.ReferenceIdeal.S64x75, .f32⟩ : BufTy).Contents (Elt Ideal)) :
    Cert.ReferenceIdeal.ReadCopy.val_main_v72 (F := Ideal) x0 x1 = Cert.Spec.dist (Cert.ReferenceIdeal.ReadCopy.val_main_v0 (F := Ideal) x0) x1 := by
  funext i
  obtain ⟨b, o, l, rfl⟩ : ∃ (b : Fin 32) (o : Fin 64) (l : Fin 50176), i = ix3 b o l := ⟨_, _, _, eq_ix3 i⟩
  have e72 : idx_main_v72 (ix3 b o l) = ix3 b l o :=
    funext fun a => Fin.ext (by match a with | ⟨0, _⟩ => rfl | ⟨1, _⟩ => rfl | ⟨2, _⟩ => rfl)
  have e63 : idx_main_v61 (idx_main_v63 (ix3 b l o)) = ix2 b l :=
    funext fun a => Fin.ext (by match a with | ⟨0, _⟩ => rfl | ⟨1, _⟩ => rfl)
  have e64 : idx_main_v62 (idx_main_v64 (ix3 b l o)) = ix1 o :=
    funext fun a => Fin.ext (by match a with | ⟨0, _⟩ => rfl)
  rw [val_main_v72_apply, e72, val_main_v71_apply, val_main_v70_apply, val_main_v68_apply, val_main_v65_apply,
    val_main_v67_apply, val_main_v63_apply, val_main_v61_apply, e63, val_main_v64_apply, val_main_v62_apply, e64,
    val_main_v66_apply, val_main_cst_1_apply, val_main_v69_apply, val_main_cst_2_apply,
    field_sq, proto_sq, cross_entry]
  first | done | rfl

end Cert.RefBridge

end
-- ==== Proof.lean ====
/-
  Radial-basis "convolution": the distance between every 5 × 5 × 3 receptive field of the zero-padded images and every
  prototype row, as a Pallas kernel and as a jnp reference.

  Both programs pad the images by 2 with zeros. The kernel, on a grid of 32 images × 7 tiles of 32 output rows, reads a
  slab of 36 padded rows, sums the squares over the channels and then over the 25 window offsets, stacks the 25 shifted
  slabs into a 75-row matrix, multiplies the prototypes into it, and stores `sqrt (max (|w|² + |field|² − 2 ⟨w, field⟩) 0)`;
  the line after the kernel reshapes [32, 64, 50176] to [32, 64, 224, 224]. The reference stacks the 25 shifted images,
  flattens to [32, 50176, 75], sums the squares over the 75 entries, contracts with the prototypes, forms
  `sqrt (max (|field|² + |w|² − 2 ⟨field, w⟩) 0)`, transposes and reshapes the same way.

  Over the extended reals both are the specification's distance map (Proof/Spec.lean) of the SAME padded images and the
  prototypes, followed by the same reshape: the two differ only in the order and grouping of finite sums (commutativity
  and associativity of + alone, which hold with the infinities too) and in the order of the factors of a product. So the
  precondition is never opened. The kernel's side is Proof/KernelValue.lean over Proof/BlockReads.lean, Proof/HaloWindows.lean,
  Proof/HaloSquares.lean (with Proof/ChainSum.lean) and Proof/TileDistance.lean; the reference's side is Proof/RefDistance.lean
  over its run (Proof/RefRun.lean) read back one operation at a time (Proof/RefRead.lean). The idealization rewrote nothing, so `preserves` is trivial.
-/
import proofs.«128501_j40114994544664_1_alg».proof.Defs
import proofs.«128501_j40114994544664_1_alg».proof.Proof.Gen.Kernel
import proofs.«128501_j40114994544664_1_alg».proof.Proof.Gen.Kernel.Skeleton
import proofs.«128501_j40114994544664_1_alg».proof.Proof.Gen.Kernel.Launch
import proofs.«128501_j40114994544664_1_alg».proof.Proof.Gen.Kernel.Points
import proofs.«128501_j40114994544664_1_alg».proof.Proof.Gen.Kernel.Frame
import proofs.«128501_j40114994544664_1_alg».proof.Proof.Gen.KernelIdeal
import proofs.«128501_j40114994544664_1_alg».proof.Proof.Gen.KernelIdeal.Skeleton
import proofs.«128501_j40114994544664_1_alg».proof.Proof.Gen.KernelIdeal.Launch
import proofs.«128501_j40114994544664_1_alg».proof.Proof.Gen.KernelIdeal.Points
import proofs.«128501_j40114994544664_1_alg».proof.Proof.Gen.KernelIdeal.Frame
import proofs.«128501_j40114994544664_1_alg».proof.Proof.Gen.ReferenceIdeal
import proofs.«128501_j40114994544664_1_alg».proof.Proof.Gen.Pre_finite_inputs
import proofs.«128501_j40114994544664_1_alg».proof.Proof.RefRun
import proofs.«128501_j40114994544664_1_alg».proof.Proof.RefRead
import proofs.«128501_j40114994544664_1_alg».proof.Proof.KernelValue
import proofs.«128501_j40114994544664_1_alg».proof.Proof.RefDistance
import Idealize.ShloMosaic.Adequacy
import Idealize.ShloMosaic.Init

noncomputable section

namespace Cert.Proof

open Idealize.ShloMosaic Idealize.SL.Sem

/-- The word-level kernel runs and keeps its arguments. -/
theorem frame_k : Cert.frame_Kernel (hKernel := Cert.Kernel.Gen.facts) (hPre_finite_inputs := Cert.Pre_finite_inputs.Gen.facts) :=
  fun m ρ _ => Cert.Kernel.Gen.frame m ρ

/-- So does the kernel read over the extended reals. -/
theorem frame_ki : Cert.frame_KernelIdeal (hKernelIdeal := Cert.KernelIdeal.Gen.facts) (hPre_finite_inputs := Cert.Pre_finite_inputs.Gen.facts) :=
  fun m ρ _ => Cert.KernelIdeal.Gen.frame m ρ

/-- The reference is a straight line of host operations: it runs, and writes no argument. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.RunCopy.run (F := Ideal) m ρ)

/-- Over the extended reals the kernel's result and the reference's are the reshaped distance map of the same padded
    images and prototypes. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨_, Cert.KernelIdeal.Dist.run m ρ, ?_⟩
  refine (θ_run Cert.ReferenceIdeal.defs _ _).mono (fun _ h c => ⟨(h c).1.trans ?_, (h c).2⟩)
    (Cert.ReferenceIdeal.RunCopy.run (F := Ideal) m' ρ')
  rw [Cert.ReferenceIdeal.ReadCopy.val_main_v73_eq]
  unfold Cert.ReferenceIdeal.ReadCopy.val_main_v73
  rw [Cert.RefBridge.ref_dist, (hagree c).1, (hagree c).2]
  show _ = shapeCast Cert.KernelIdeal.S32x64x224x224
    (Cert.Spec.dist (Cert.KernelIdeal.Blocks.padded m c) (Cert.KernelIdeal.Blocks.protos m c)) _
  rw [Cert.KernelIdeal.Dist.padded_eq, Cert.KernelIdeal.Dist.protos_eq]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
